-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S1024 : Shape := ⟨1, ![1024]⟩
abbrev S512 : Shape := ⟨1, ![512]⟩
abbrev S512x1 : Shape := ⟨2, ![512, 1]⟩
abbrev S256x512 : Shape := ⟨2, ![256, 512]⟩
abbrev S1024x512 : Shape := ⟨2, ![1024, 512]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  reduces_S1024x256_S1024 : S1024x256.Reduces [1] S1024
  shapeCasts_S1024_S1024x1 : S1024.ShapeCasts S1024x1
  reduces_S512x256_S512 : S512x256.Reduces [1] S512
  shapeCasts_S512_S512x1 : S512.ShapeCasts S512x1
  transposes_S512x256_p1_0_S256x512 : S512x256.Transposes [1, 0] S256x512
  transposes_S512x1_p1_0_S1x512 : S512x1.Transposes [1, 0] S1x512
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S1024x512_d0_w32 : S1024x512.Iotas .tc 32 [0]
  iota_S1024x512_d1_w32 : S1024x512.Iotas .tc 32 [1]
  reduces_S1024x512_S1024 : S1024x512.Reduces [1] S1024
  shapeCasts_S8192x1_S8192 : S8192x1.ShapeCasts S8192
  reducesTo_S8192_S_d0 : S8192.ReducesTo [0] S_
  h_S_ : 0 < S_.numel
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 83
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .i1⟩
  | .hbm, ⟨49, _⟩ => ⟨S8192, .i1⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .i1⟩
  | .hbm, ⟨61, _⟩ => ⟨S8192, .i1⟩
  | .hbm, ⟨62, _⟩ => ⟨S_, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_call3_v0 : Ref sig .tc := ⟨.hbm, 57, rfl⟩
abbrev main_call3_v1 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_cst_11 : Ref sig .tc := ⟨.hbm, 62, rfl⟩
abbrev main_call4_v0 : Ref sig .tc := ⟨.hbm, 63, rfl⟩
abbrev main_call4_v1 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_cst_13 : Ref sig .tc := ⟨.hbm, 68, rfl⟩
abbrev main_call5_v0 : Ref sig .tc := ⟨.hbm, 69, rfl⟩
abbrev main_call5_v1 : Ref sig .tc := ⟨.hbm, 70, rfl⟩
abbrev main_v41 : Ref sig .tc := ⟨.hbm, 71, rfl⟩
abbrev main_cst_14 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_cst_16 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Base.lean ====
/-
  The vocabulary the frame and the value of `Kernel`'s one kernel region are stated over.

  The region runs a 8 × 16 grid: row block `i` (1024 rows) against column block `j` (512 rows of the same array).
  Two scratch vectors of 1024 entries carry, across the sixteen column blocks of one row block, the running
  maximum of the positives' distances and the running minimum of the negatives' distances; they are reset at
  `j = 0` and read into the output block at `j = 15`. Here: the arrays as the region finds them (`V`: after the
  two reshapes of the labels), a window's block at a point (`iblk`), the two branch conditions in closed form
  over the 128 points, where the output window is idle, the staging and scratch memrefs, and the body's stored
  values as functions of the blocks it loads (`newMax`, `newMin`, `outOf`).
-/
import proofs.«146683_j3109556322825_1_alg».proof.Proof.Gen.Kernel.Launch
import proofs.«146683_j3109556322825_1_alg».proof.Proof.Gen.Kernel.Skeleton
import proofs.«146683_j3109556322825_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffer contents when the region is entered: after the two reshapes of the label vector. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- "This is the row block's first column block" (`j = 0`), as the body computes it. -/
abbrev condFirst (i : grid0.Coords) : Prop :=
  (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- "This is the row block's last column block" (`j = 15`). -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last column block the body stores nothing into the output window, -/
theorem idleAt4 : ∀ t : Fin cfg0.N, ¬condLast (grid0.coords t) → cfg0.idle 4 (grid0.coords t) = true := by decide +kernel
/-- and the pipeline does not write its block back there; -/
theorem noFlush4 : ∀ t : Fin cfg0.N, ¬condLast (grid0.coords t) → (cfg0.win 4).flush t = false := by decide +kernel
/-- at the last column block the body stores the whole block. -/
theorem liveAt4 : ∀ t : Fin cfg0.N, condLast (grid0.coords t) → cfg0.idle 4 (grid0.coords t) = false := by decide +kernel

/-! ## The staging and scratch memrefs -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-maximum scratch and the running-minimum scratch: whole scoped buffers of the kernel's own. -/
abbrev scMax : Memref sig .tc .vmem S1024x1 .f32 := Memref.whole cc0_scratch0
abbrev scMin : Memref sig .tc .vmem S1024x1 .f32 := Memref.whole cc0_scratch1

/-- The region's plain invariant with the two scratch vectors as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scMin fullShare d)) ∗ (∃ r, prngReg c r)) := by
  unfold Pipeline.ΦA; rw [scopedRest0_eq]; simp only [scMax, scMin, owns_whole]; try rfl

/-! ## What the body stores, as functions of what it loads -/

/-- The running maximum after a point: the maximum of what the scratch held (`s`) and the block's row maxima of the
    positives' distances — from the row block `x0`, the column block `x1`, their labels `l2`, `l3`. -/
def newMax (i : grid0.Coords) (x0 : Vec F S1024x256 .f32) (x1 : Vec F S512x256 .f32) (l2 : Vec F S1024x1 .i32) (l3 : Vec F S1x512 .i32)
    (s : Vec F S1024x1 .f32) : Vec F S1024x1 .f32 :=
  k0_pay1 (BitVec.ofNat 32 (i 0).val) (BitVec.ofNat 32 (i 1).val) (k0_pay6 x0 x1) (k0_pay7 l2 l3) s
/-- The running minimum after a point, likewise over the negatives. -/
def newMin (x0 : Vec F S1024x256 .f32) (x1 : Vec F S512x256 .f32) (l2 : Vec F S1024x1 .i32) (l3 : Vec F S1x512 .i32)
    (s : Vec F S1024x1 .f32) : Vec F S1024x1 .f32 :=
  k0_pay2 (k0_pay6 x0 x1) (k0_pay7 l2 l3) s
/-- The output block from the two running folds. -/
def outOf (smax smin : Vec F S1024x1 .f32) : Vec F S1024x1 .f32 := k0_pay3 smax smin

end Cert.Kernel.Hand

end
-- ==== Proof.K.Body.lean ====
/-
  The body of `Kernel`'s kernel, run once in each of the three cases its two branches make on the grid:
  at a row block's first column block (the scratch vectors reset, then folded into), at a column block in the
  middle (folded into), and at the last one (folded into, then read into the output block). Each run is
  stated on any whole memrefs holding the four input blocks, and leaves the scratch vectors and the output
  block at the body's stored values as functions of what it loaded (`newMax`, `newMin`, `outOf`).
-/
import proofs.«146683_j3109556322825_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the printed rectangles spell them. -/
private theorem hz : (![0, 0] : Fin 2 → Nat) = fun _ => 0 := funext fun a => by fin_cases a <;> rfl

/-- A store through the whole rectangle, made last: the buffer then reads the stored vector, whatever it held
    before and whatever the earlier stores were. -/
private theorem read_cons {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- First column block: the scratch vectors hold anything; they end at the folds from the reset values. The output block is handed back untouched. -/
theorem run_first (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : condFirst i) (hc1 : ¬condLast i) (x0 : Vec F S1024x256 .f32) (x1 : Vec F S512x256 .f32) (l2 : Vec F S1024x1 .i32) (l3 : Vec F S1x512 .i32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
            ∗ owns (c : Thread nD τ) arg7 fullShare (newMax i x0 x1 l2 l3 (k0_pay4 (F := F)))
            ∗ owns (c : Thread nD τ) arg8 fullShare (newMin x0 x1 l2 l3 (k0_pay5 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, View.readCov_unit_zero (S := S1024x1) _ hz, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, View.readCov_unit_zero (S := S1024x1) _ hz, View.ld_unit_zero (S := S1024x256) hz, View.ld_unit_zero (S := S512x256) hz, View.ld_unit_zero (S := S1024x1) hz, View.ld_unit_zero (S := S1x512) hz]
    rfl

/-- A middle column block: the scratch vectors hold `s0`, `s1`; they end folded once more. The output block is handed back untouched. -/
theorem run_mid (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : ¬condLast i) (x0 : Vec F S1024x256 .f32) (x1 : Vec F S512x256 .f32) (l2 : Vec F S1024x1 .i32) (l3 : Vec F S1x512 .i32) (xo s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
            ∗ owns (c : Thread nD τ) arg7 fullShare (newMax i x0 x1 l2 l3 s0)
            ∗ owns (c : Thread nD τ) arg8 fullShare (newMin x0 x1 l2 l3 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, harg7.read_unread, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, harg8.read_unread, View.ld_unit_zero (S := S1024x256) hz, View.ld_unit_zero (S := S512x256) hz, View.ld_unit_zero (S := S1024x1) hz, View.ld_unit_zero (S := S1x512) hz]
    rfl

/-- The last column block: as in the middle, and the output block (holding anything) ends at the row losses of the two folds. -/
theorem run_last (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : condLast i) (x0 : Vec F S1024x256 .f32) (x1 : Vec F S512x256 .f32) (l2 : Vec F S1024x1 .i32) (l3 : Vec F S1x512 .i32) (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (outOf (newMax i x0 x1 l2 l3 s0) (newMin x0 x1 l2 l3 s1))
            ∗ owns (c : Thread nD τ) arg7 fullShare (newMax i x0 x1 l2 l3 s0)
            ∗ owns (c : Thread nD τ) arg8 fullShare (newMin x0 x1 l2 l3 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    on_goal 2 => iexact H4
    ipureintro
    sl_unfold_words
    refine (read_cons _ _ hz _ _ _).trans ?_
    simp only [View.readAt_eq_ld, harg2.read_unread, harg3.read_unread, harg4.read_unread, harg5.read_unread, harg7.read_unread, harg8.read_unread, View.readCov_unit_zero (S := S1024x1) _ hz, View.ld_unit_zero (S := S1024x256) hz, View.ld_unit_zero (S := S512x256) hz, View.ld_unit_zero (S := S1024x1) hz, View.ld_unit_zero (S := S1x512) hz]
    rfl
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, harg7.read_unread, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, harg8.read_unread, View.ld_unit_zero (S := S1024x256) hz, View.ld_unit_zero (S := S512x256) hz, View.ld_unit_zero (S := S1024x1) hz, View.ld_unit_zero (S := S1x512) hz]
    rfl

end Cert.Kernel.Hand

end
-- ==== Proof.K.Data.lean ====
/-
  The proof data of `Kernel`'s kernel region, and its body obligation.

  After the body at grid point `n` (row block `n / 16`, column block `n % 16`) the two scratch vectors hold
  `scAt n`: one step of the two folds (`stepAt`: the running maximum and minimum taken once more, over this
  point's four blocks) from the reset values at a row block's first column block, and from what the point before
  left elsewhere. The output window's buffer is stored only at a row block's last column block, with the row
  losses of the two folds (`outAt`); elsewhere it is idle. The four inputs are only read. The feature array is
  read through two windows, each holding half of its share.
-/
import proofs.«146683_j3109556322825_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the scratch vectors and the output block hold after each point -/

/-- The scratch vectors' reset values: −∞ for the running maximum, +∞ for the running minimum. -/
def resetSc : Vec F S1024x1 .f32 × Vec F S1024x1 .f32 := (k0_pay4 (F := F), k0_pay5 (F := F))

/-- One step of the two folds at point `t`, over the point's four blocks, from scratch contents `s`. -/
def stepAt (c : Dev nD) (t : Fin cfg0.N) (s : Vec F S1024x1 .f32 × Vec F S1024x1 .f32) : Vec F S1024x1 .f32 × Vec F S1024x1 .f32 :=
  (newMax (grid0.coords t) (iblk m c 0 t) (iblk m c 1 t) (iblk m c 2 t) (iblk m c 3 t) s.1,
   newMin (iblk m c 0 t) (iblk m c 1 t) (iblk m c 2 t) (iblk m c 3 t) s.2)

/-- The scratch vectors after the body at position `n`. -/
def scAt (c : Dev nD) : (n : ℕ) → n < cfg0.N → Vec F S1024x1 .f32 × Vec F S1024x1 .f32
  | 0, hn => stepAt m c ⟨0, hn⟩ resetSc
  | n + 1, hn => stepAt m c ⟨n + 1, hn⟩ (if (n + 1) % 16 = 0 then resetSc else scAt c n (Nat.lt_of_succ_lt hn))

/-- At a row block's first column block: one step from the reset values. -/
theorem scAt_first (c : Dev nD) (t : Fin cfg0.N) (h : t.val % 16 = 0) : scAt m c t.val t.isLt = stepAt m c t resetSc := by
  obtain ⟨n, hn⟩ := t
  cases n with
  | zero => rfl
  | succ n => exact congrArg (stepAt m c ⟨n + 1, hn⟩) (if_pos h)

/-- Elsewhere: one step from what the point before left. -/
theorem scAt_next (c : Dev nD) (t : Fin cfg0.N) (h : ¬t.val % 16 = 0) :
    scAt m c t.val t.isLt = stepAt m c t (scAt m c (t.val - 1) (Nat.lt_of_le_of_lt (Nat.sub_le _ _) t.isLt)) := by
  obtain ⟨n, hn⟩ := t
  cases n with
  | zero => exact absurd (Nat.zero_mod _) h
  | succ n => exact congrArg (stepAt m c ⟨n + 1, hn⟩) (if_neg h)

/-- The output block the body stores at point `t` (meaningful at a row block's last column block; elsewhere the
    window is idle and nothing consults it). -/
def outAt (c : Dev nD) (t : Fin cfg0.N) : Vec F S1024x1 .f32 := outOf (scAt m c t.val t.isLt).1 (scAt m c t.val t.isLt).2

/-! ## The invariant: the scratch vectors at what the point before left -/

def PhiS (c : Dev nD) : (n : ℕ) → n ≤ cfg0.N → sProp 𝕄
  | 0, _ => Pipeline.ΦA spec0 c
  | n + 1, hn => iprop(iprop(owns (c : Thread nD τ) scMax fullShare (scAt m c n hn).1 ∗ owns (c : Thread nD τ) scMin fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (scAt m c n hn).1 ∗ owns (c : Thread nD τ) scMin fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scMax fullShare (scAt m c (n - 1) (by omega)).1 ∗ owns (c : Thread nD τ) scMin fullShare (scAt m c (n - 1) (by omega)).2) ∗ (∃ r, prngReg c r)) := by
  cases n with
  | zero => exact absurd rfl hz
  | succ n => rfl

/-! ## The proof data -/

/-- The arrays as the region finds them; after the body each input's buffer at its block and the output's at
    `outAt`; the invariant `PhiS`; the feature array's share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t := by
  -- an input the body only reads: at every point its buffer holds the array's block there (where the pipeline did not
  -- fetch, the block index had not moved); the array is the entry contents, so that block is `iblk`
  have hkeep : ∀ s, (cfg0.win 0).cut (cfg0.grid.coords s) ((dats m 0 c).after 0 s) = (dats m 0 c).blockOf 0 s := fun s => by
    rw [after0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl
theorem before1 (c : Dev nD) (t : Fin cfg0.N) (d) : (dats m 0 c).before 1 t d = iblk m c 1 t := by
  -- an input the body only reads: at every point its buffer holds the array's block there (where the pipeline did not
  -- fetch, the block index had not moved); the array is the entry contents, so that block is `iblk`
  have hkeep : ∀ s, (cfg0.win 1).cut (cfg0.grid.coords s) ((dats m 0 c).after 1 s) = (dats m 0 c).blockOf 1 s := fun s => by
    rw [after1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl
theorem before2 (c : Dev nD) (t : Fin cfg0.N) (d) : (dats m 0 c).before 2 t d = iblk m c 2 t := by
  -- an input the body only reads: at every point its buffer holds the array's block there (where the pipeline did not
  -- fetch, the block index had not moved); the array is the entry contents, so that block is `iblk`
  have hkeep : ∀ s, (cfg0.win 2).cut (cfg0.grid.coords s) ((dats m 0 c).after 2 s) = (dats m 0 c).blockOf 2 s := fun s => by
    rw [after2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl
theorem before3 (c : Dev nD) (t : Fin cfg0.N) (d) : (dats m 0 c).before 3 t d = iblk m c 3 t := by
  -- an input the body only reads: at every point its buffer holds the array's block there (where the pipeline did not
  -- fetch, the block index had not moved); the array is the entry contents, so that block is `iblk`
  have hkeep : ∀ s, (cfg0.win 3).cut (cfg0.grid.coords s) ((dats m 0 c).after 3 s) = (dats m 0 c).blockOf 3 s := fun s => by
    rw [after3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl

/-- At any position the invariant gives the plain one: the scratch vectors at some contents. -/
theorem PhiS_forget (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HM, Hm⟩, Hg⟩
    isplitl [HM Hm]
    · isplitl [HM]
      · iexists _; iexact HM
      · iexists _; iexact Hm
    · iexact Hg

/-! ## The body obligation, at one point -/

/-- What the body is handed at point `t`: the invariant, the core's debts, and the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The four inputs are live at every point: the body hands each buffer back at its block. -/
theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]

set_option maxHeartbeats 1600000 in
/-- The body at any point. The inputs' buffers hold their blocks; the point's position in its row block says which
    of the three runs applies. At a first column block the scratch vectors are taken at whatever they hold and left
    one fold step from the reset values; elsewhere they are taken at what the point before left and folded once
    more; at a last column block the output buffer is stored with the row losses of the two folds, and elsewhere
    it is handed back as found. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 128 := lt_of_lt_of_eq t.isLt (show cfg0.N = 128 from N_0)
  by_cases h0 : t.val % 16 = 0
  · -- first column block
    have hc0 : condFirst (grid0.coords t) := (hcondFirst t).mpr h0
    have hc1 : ¬condLast (grid0.coords t) := fun h => by have := (hcondLast t).mp h; omega
    rw [Dat.leavesExact_idle (dats m 0 c) 4 t (idleAt4 t hc1) (noFlush4 t hc1)]
    rw [scAt_first m c t h0]; unfold stepAt resetSc; dsimp only
    refine BIBase.Entails.trans (sep_mono_left (PhiS_forget m c _ _)) ?_
    rw [PhiA0_eq]
    iintro ⟨⟨⟨HM, Hm⟩, Hg⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HM]; · iexact HM
    isplitl [Hm]; · iexact Hm
    iintro ⟨H0, H1, H2, H3, H4, HM, Hm⟩
    isplitl [HM Hm Hg]
    · isplitl [HM Hm]
      · isplitl [HM]
        · iexact HM
        · iexact Hm
      · iexact Hg
    isplitl [Ho]; · iexact Ho
    isplitl [H0]; · iexact H0
    isplitl [H1]; · iexact H1
    isplitl [H2]; · iexact H2
    isplitl [H3]; · iexact H3
    iexists _; iexact H4
  · have hc0 : ¬condFirst (grid0.coords t) := fun h => h0 ((hcondFirst t).mp h)
    have hz : t.val ≠ 0 := fun e => h0 (by rw [e])
    rw [PhiS_pos m c _ _ hz, scAt_next m c t h0]; unfold stepAt; dsimp only
    by_cases h1 : t.val % 16 = 15
    · -- last column block
      have hc1 : condLast (grid0.coords t) := (hcondLast t).mpr h1
      rw [show (dats m 0 c).leavesExact 4 t = owns (c : Thread nD τ) (ms4 t) fullShare ((dats m 0 c).after 4 t) from by
        unfold Dat.leavesExact; rw [liveAt4 t hc1]]
      rw [after4]; unfold outAt; rw [scAt_next m c t h0]; unfold stepAt; dsimp only
      iintro ⟨⟨⟨HM, Hm⟩, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HM]; · iexact HM
      isplitl [Hm]; · iexact Hm
      iintro ⟨H0, H1, H2, H3, H4, HM, Hm⟩
      isplitl [HM Hm Hg]
      · isplitl [HM Hm]
        · isplitl [HM]
          · iexact HM
          · iexact Hm
        · iexact Hg
      isplitl [Ho]; · iexact Ho
      isplitl [H0]; · iexact H0
      isplitl [H1]; · iexact H1
      isplitl [H2]; · iexact H2
      isplitl [H3]; · iexact H3
      iexact H4
    · -- a middle column block
      have hc1 : ¬condLast (grid0.coords t) := fun h => h1 ((hcondLast t).mp h)
      rw [Dat.leavesExact_idle (dats m 0 c) 4 t (idleAt4 t hc1) (noFlush4 t hc1)]
      iintro ⟨⟨⟨HM, Hm⟩, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) ((dats m 0 c).before 4 t d4) _ _ Set.univ _)
      isplitl [H0]; · iexact H0
      isplitl [H1]; · iexact H1
      isplitl [H2]; · iexact H2
      isplitl [H3]; · iexact H3
      isplitl [H4]; · iexact H4
      isplitl [HM]; · iexact HM
      isplitl [Hm]; · iexact Hm
      iintro ⟨H0, H1, H2, H3, H4, HM, Hm⟩
      isplitl [HM Hm Hg]
      · isplitl [HM Hm]
        · isplitl [HM]
          · iexact HM
          · iexact Hm
        · iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := by
  intro t
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the plain one back: the scratch vectors' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

end Cert.Kernel.Hand

end
-- ==== Proof.K.Launch.lean ====
/-
  The run of `Kernel`'s @main: two reshapes of the label vector, the kernel region, five host lines (the output
  column reshaped to a vector, summed from zero, divided by 8192).

  The region reads the feature array through TWO windows (row blocks and column blocks of one array), so the
  array's share is dealt in halves to the two windows at entry and joined again at exit; the host lines after the
  region run over the output array and the buffers they write, which do not include the feature array. The
  run ends with the result buffer at the host lines' value of the output array the region leaves, and both
  arguments unchanged.
-/
import proofs.«146683_j3109556322825_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents the host lines after the region start from: as the region was entered, but for the
    output array, which holds what the region's write-backs left. -/
def exitVal (c : Dev nD) : Valuation τ sig (Elt F) :=
  Function.update (V0 m c) (Proc.devRef .tc main_v2) ((dats m 0 c).arrAt 4 cfg0.N)

/-- The result buffer after the host lines. -/
def resultOf (c : Dev nD) : Buf (Elt F) ((c.tc : Thread nD τ).loc main_v5) :=
  StableHlo.after hostOps1 (exitVal m c) (Proc.devRef .tc main_v5)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five host lines, at the contents after the two reshapes. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The feature array's share, dealt to its two windows -/

/-- The buffers behind the windows' arrays, one by one (the feature array once). -/
theorem arrBufs0_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) := by
  unfold Pipeline.arrBufs
  exact bigSep_eq_bigSepL_of_eq [main_arg0, main_v0, main_v1, main_v2] (by decide) (by decide) _

/-- A buffer's full share is its two halves, -/
theorem hhalf (c : Dev nD) (f : Buf (Elt F) ((c : Thread nD τ).loc main_arg0)) :
    ((((c : Thread nD τ).loc main_arg0) ↦{fullShare} f) : sProp 𝕄)
      ⊢ iprop((((c : Thread nD τ).loc main_arg0) ↦{fullShare.left} f) ∗ (((c : Thread nD τ).loc main_arg0) ↦{fullShare.right} f)) :=
  (pointsTo_share (PosShare.mem_left_op_right fullShare)).1
/-- and the two halves join to the full share. -/
theorem hjoin (c : Dev nD) (f : Buf (Elt F) ((c : Thread nD τ).loc main_arg0)) :
    (iprop((((c : Thread nD τ).loc main_arg0) ↦{fullShare.left} f) ∗ (((c : Thread nD τ).loc main_arg0) ↦{fullShare.right} f)) : sProp 𝕄)
      ⊢ (((c : Thread nD τ).loc main_arg0) ↦{fullShare} f) :=
  (pointsTo_share (PosShare.mem_left_op_right fullShare)).2

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The windows' arrays one by one, each whole at its share. -/
theorem arrays0_eq (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, share0, share1, share2, share3, share4, (Memref.isWhole_whole main_arg0).set_eq_univ, (Memref.isWhole_whole main_v0).set_eq_univ,
    (Memref.isWhole_whole main_v1).set_eq_univ, (Memref.isWhole_whole main_v2).set_eq_univ]

/-- At entry the buffers behind the arrays make the windows' arrays: the feature array's share dealt in halves. -/
theorem hsplit (c : Dev nD) : (Pipeline.arrBufs spec0 c (V m c) : sProp 𝕄) ⊢ (dats m 0 c).arrays ((dats m 0 c).arrAt · 0) := by
  rw [arrBufs0_eq, arrays0_eq]
  iintro ⟨H0, Hv0, Hv1, Hv2⟩
  ihave H := (hhalf c (V m c main_arg0)) $$ H0
  icases H with ⟨Hl, Hr⟩
  isplitl [Hl]; · iexact Hl
  isplitl [Hr]; · iexact Hr
  isplitl [Hv0]; · iexact Hv0
  isplitl [Hv1]; · iexact Hv1
  iexact Hv2

/-- What the host lines after the region hold besides the arrays: the label argument as it was, and the result
    buffer at the lines' value. -/
def tailPost (c : Dev nD) : sProp 𝕄 :=
  iprop((((c.tc : Thread nD τ).loc main_arg1) ↦{fullShare} V m c main_arg1)
    ∗ (((c.tc : Thread nD τ).loc main_v5) ↦{fullShare} resultOf m c))

/-! ## The host lines after the region -/

/-- The buffers the five host lines touch: the output array they read and the five buffers they write. -/
abbrev tailRefs : Finset (DevRef τ sig) :=
  ([Proc.devRef .tc main_v2, Proc.devRef .tc main_v3, Proc.devRef .tc main_cst, Proc.devRef .tc main_v4,
    Proc.devRef .tc main_cst_0, Proc.devRef .tc main_v5] : List (DevRef τ sig)).toFinset

/-- Those buffers held at a valuation, one by one. -/
theorem heldTail_eq (c : Dev nD) (W : Valuation τ sig (Elt F)) :
    (StableHlo.held (c.tc : Thread nD τ) tailRefs W : sProp 𝕄)
      = iprop((((c : Thread nD τ).loc main_v2) ↦{fullShare} W (Proc.devRef .tc main_v2)) ∗ (((c : Thread nD τ).loc main_v3) ↦{fullShare} W (Proc.devRef .tc main_v3))
          ∗ (((c : Thread nD τ).loc main_cst) ↦{fullShare} W (Proc.devRef .tc main_cst)) ∗ (((c : Thread nD τ).loc main_v4) ↦{fullShare} W (Proc.devRef .tc main_v4))
          ∗ (((c : Thread nD τ).loc main_cst_0) ↦{fullShare} W (Proc.devRef .tc main_cst_0)) ∗ (((c : Thread nD τ).loc main_v5) ↦{fullShare} W (Proc.devRef .tc main_v5))) := by
  unfold StableHlo.held
  exact bigSep_eq_bigSepL _ (by decide) _

theorem exitVal_out (c : Dev nD) : exitVal m c (Proc.devRef .tc main_v2) = (dats m 0 c).arrAt 4 cfg0.N := by
  unfold exitVal; exact Function.update_self _ _ _
theorem exitVal_ne (c : Dev nD) (b : DevRef τ sig) (h : b ≠ Proc.devRef .tc main_v2) : exitVal m c b = V0 m c b := by
  unfold exitVal; exact Function.update_of_ne h _ _

theorem hostOps1_tail : ∀ ops ∈ ([hostOps1] : List (List (HloOp τ sig (Elt F)))), ∀ op ∈ ops, op.bufs ⊆ tailRefs := by
  intro ops hops op hop
  simp only [List.mem_cons, List.mem_nil_iff, or_false] at hops
  subst hops
  simp only [hostOps1, List.mem_cons, List.mem_nil_iff, or_false] at hop
  rcases hop with rfl | rfl | rfl | rfl | rfl <;>
    first | (rw [StableHlo.reshape_bufs]; decide) | (rw [StableHlo.nullary_bufs]; decide) | (rw [StableHlo.binary_bufs]; decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host line after the region writes the output array. -/
theorem after_tail_out (c : Dev nD) :
    StableHlo.after hostOps1 (exitVal m c) (Proc.devRef .tc main_v2) = (dats m 0 c).arrAt 4 cfg0.N := by
  rw [StableHlo.after_of_forall_not_mem _ _ fun op hop => ?_, exitVal_out]
  simp only [hostOps1, List.mem_cons, List.mem_nil_iff, or_false] at hop
  rcases hop with rfl | rfl | rfl | rfl | rfl <;>
    (simp only [StableHlo.reshape_writes, StableHlo.nullary_writes, StableHlo.binary_writes]; decide)

set_option backward.isDefEq.respectTransparency.types false in
/-- From the region's exit — the arrays at what the write-backs left, the other buffers as the region was entered —
    the five host lines run, and hand back the arrays as they were, the label argument, and the result buffer at the
    lines' value. -/
theorem htail (c : Dev nD) (Q' : PUnit → sProp 𝕄) :
    iprop((iprop((dats m 0 c).arrays ((dats m 0 c).arrAt · cfg0.N) ∗ tailPost m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [arrays0_eq, Pipeline.unscopedRestP_none, unscopedRest0_eq]
  iintro ⟨Hk, Hb, ⟨Hl, Hr, Hv0, Hv1, Hv2⟩, ⟨Harg1, H3, Hc, H4, Hc0, H5⟩⟩
  rw [← List.append_nil ([StableHlo.seq hostOps1] : List _)]
  iapply (Pipeline.wp_seqs_then (fun q => (cfgs q).toPCfg (Val := Elt F)) defs₀ Variants.none c tailRefs [] [hostOps1] hostOps1_tail hostOps1_fresh' (exitVal m c)) $$ [Hb Hv2 H3 Hc H4 Hc0 H5]
  · isplitl [Hb]; · iexact Hb
    rw [heldTail_eq, exitVal_out, exitVal_ne m c _ (by decide), exitVal_ne m c _ (by decide), exitVal_ne m c _ (by decide),
      exitVal_ne m c _ (by decide), exitVal_ne m c _ (by decide)]
    isplitl [Hv2]; · iexact Hv2
    isplitl [H3]; · iexact H3
    isplitl [Hc]; · iexact Hc
    isplitl [H4]; · iexact H4
    isplitl [Hc0]; · iexact Hc0
    iexact H5
  iintro Hb
  rw [Pipeline.chain_nil, wp_pure, heldTail_eq]
  imodintro
  iapply Hk
  icases Hb with ⟨-, Hv2, -, -, -, -, H5⟩
  simp only [List.flatten_cons, List.flatten_nil, List.append_nil]
  rw [after_tail_out]
  isplitl [Hl Hr Hv0 Hv1 Hv2]
  · isplitl [Hl]; · iexact Hl
    isplitl [Hr]; · iexact Hr
    isplitl [Hv0]; · iexact Hv0
    isplitl [Hv1]; · iexact Hv1
    iexact Hv2
  unfold tailPost resultOf
  isplitl [Harg1]; · iexact Harg1
  iexact H5

/-! ## The arguments as the region finds them -/

/-- The two reshapes before the region write neither argument. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results

set_option backward.isDefEq.respectTransparency.types false in
/-- From any memory with zero counters every weakly fair execution of @main terminates, the result buffer at the host
    lines' value of the output array the region leaves, both arguments unchanged. -/
theorem run_main : θ_run defs (onTc (τ := τ) (main (F := F))) ⟨m, fun _ => 0, ρ⟩ (fun r => ∀ c : Dev nD,
      r.2.mem ((c.tc : Thread nD τ).loc main_v5) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V m c b) (hmain := hmain m)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => tailPost m c)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg1) = V m c main_arg1 ∧ s.mem ((c.tc : Thread nD τ).loc main_v5) = resultOf m c)
    (hY := fun c s' => by
      unfold tailPost
      iintro ⟨-, ⟨H1, H5⟩, HSI⟩
      icombine HSI H1 gives %h1
      icombine HSI H5 gives %h5
      imodintro
      isplitr
      · ipureintro; exact ⟨Buf.eq_of_forall_mem_univ h1, Buf.eq_of_forall_mem_univ h5⟩
      · iexact HSI)
    (hQ := fun s h c => ⟨(h c).2.2.2,
      ((h c).1 0).trans (((dats m 0 c).arrAt_in 0 rfl _).trans ((A_eq m c 0).trans (V_main_arg0 m c))),
      (h c).2.2.1.trans (V_main_arg1 m c)⟩)

/-- THE FRAME: every weakly fair execution terminates, nothing faults, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Base.lean ====
/-
  The vocabulary the frame and the value of `KernelIdeal`'s one kernel region are stated over.

  The region runs a 8 × 16 grid: row block `i` (1024 rows) against column block `j` (512 rows of the same array).
  Two scratch vectors of 1024 entries carry, across the sixteen column blocks of one row block, the running
  maximum of the positives' distances and the running minimum of the negatives' distances; they are reset at
  `j = 0` and read into the output block at `j = 15`. Here: the arrays as the region finds them (`V`: after the
  two reshapes of the labels), a window's block at a point (`iblk`), the two branch conditions in closed form
  over the 128 points, where the output window is idle, the staging and scratch memrefs, and the body's stored
  values as functions of the blocks it loads (`newMax`, `newMin`, `outOf`).
-/
import proofs.«146683_j3109556322825_1_alg».proof.Proof.Gen.KernelIdeal.Launch
import proofs.«146683_j3109556322825_1_alg».proof.Proof.Gen.KernelIdeal.Skeleton
import proofs.«146683_j3109556322825_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffer contents when the region is entered: after the two reshapes of the label vector. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, over the grid -/

/-- "This is the row block's first column block" (`j = 0`), as the body computes it. -/
abbrev condFirst (i : grid0.Coords) : Prop :=
  (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- "This is the row block's last column block" (`j = 15`). -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last column block the body stores nothing into the output window, -/
theorem idleAt4 : ∀ t : Fin cfg0.N, ¬condLast (grid0.coords t) → cfg0.idle 4 (grid0.coords t) = true := by decide +kernel
/-- and the pipeline does not write its block back there; -/
theorem noFlush4 : ∀ t : Fin cfg0.N, ¬condLast (grid0.coords t) → (cfg0.win 4).flush t = false := by decide +kernel
/-- at the last column block the body stores the whole block. -/
theorem liveAt4 : ∀ t : Fin cfg0.N, condLast (grid0.coords t) → cfg0.idle 4 (grid0.coords t) = false := by decide +kernel

/-! ## The staging and scratch memrefs -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-maximum scratch and the running-minimum scratch: whole scoped buffers of the kernel's own. -/
abbrev scMax : Memref sig .tc .vmem S1024x1 .f32 := Memref.whole cc0_scratch0
abbrev scMin : Memref sig .tc .vmem S1024x1 .f32 := Memref.whole cc0_scratch1

/-- The region's plain invariant with the two scratch vectors as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scMin fullShare d)) ∗ (∃ r, prngReg c r)) := by
  unfold Pipeline.ΦA; rw [scopedRest0_eq]; simp only [scMax, scMin, owns_whole]; try rfl

/-! ## What the body stores, as functions of what it loads -/

/-- The running maximum after a point: the maximum of what the scratch held (`s`) and the block's row maxima of the
    positives' distances — from the row block `x0`, the column block `x1`, their labels `l2`, `l3`. -/
def newMax (i : grid0.Coords) (x0 : Vec F S1024x256 .f32) (x1 : Vec F S512x256 .f32) (l2 : Vec F S1024x1 .i32) (l3 : Vec F S1x512 .i32)
    (s : Vec F S1024x1 .f32) : Vec F S1024x1 .f32 :=
  k0_pay1 (BitVec.ofNat 32 (i 0).val) (BitVec.ofNat 32 (i 1).val) (k0_pay6 x0 x1) (k0_pay7 l2 l3) s
/-- The running minimum after a point, likewise over the negatives. -/
def newMin (x0 : Vec F S1024x256 .f32) (x1 : Vec F S512x256 .f32) (l2 : Vec F S1024x1 .i32) (l3 : Vec F S1x512 .i32)
    (s : Vec F S1024x1 .f32) : Vec F S1024x1 .f32 :=
  k0_pay2 (k0_pay6 x0 x1) (k0_pay7 l2 l3) s
/-- The output block from the two running folds. -/
def outOf (smax smin : Vec F S1024x1 .f32) : Vec F S1024x1 .f32 := k0_pay3 smax smin

end Cert.KernelIdeal.Hand

end
-- ==== Proof.KI.Body.lean ====
/-
  The body of `KernelIdeal`'s kernel, run once in each of the three cases its two branches make on the grid:
  at a row block's first column block (the scratch vectors reset, then folded into), at a column block in the
  middle (folded into), and at the last one (folded into, then read into the output block). Each run is
  stated on any whole memrefs holding the four input blocks, and leaves the scratch vectors and the output
  block at the body's stored values as functions of what it loaded (`newMax`, `newMin`, `outOf`).
-/
import proofs.«146683_j3109556322825_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the printed rectangles spell them. -/
private theorem hz : (![0, 0] : Fin 2 → Nat) = fun _ => 0 := funext fun a => by fin_cases a <;> rfl

/-- A store through the whole rectangle, made last: the buffer then reads the stored vector, whatever it held
    before and whatever the earlier stores were. -/
private theorem read_cons {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- First column block: the scratch vectors hold anything; they end at the folds from the reset values. The output block is handed back untouched. -/
theorem run_first (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : condFirst i) (hc1 : ¬condLast i) (x0 : Vec F S1024x256 .f32) (x1 : Vec F S512x256 .f32) (l2 : Vec F S1024x1 .i32) (l3 : Vec F S1x512 .i32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
            ∗ owns (c : Thread nD τ) arg7 fullShare (newMax i x0 x1 l2 l3 (k0_pay4 (F := F)))
            ∗ owns (c : Thread nD τ) arg8 fullShare (newMin x0 x1 l2 l3 (k0_pay5 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, View.readCov_unit_zero (S := S1024x1) _ hz, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, View.readCov_unit_zero (S := S1024x1) _ hz, View.ld_unit_zero (S := S1024x256) hz, View.ld_unit_zero (S := S512x256) hz, View.ld_unit_zero (S := S1024x1) hz, View.ld_unit_zero (S := S1x512) hz]
    rfl

/-- A middle column block: the scratch vectors hold `s0`, `s1`; they end folded once more. The output block is handed back untouched. -/
theorem run_mid (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : ¬condLast i) (x0 : Vec F S1024x256 .f32) (x1 : Vec F S512x256 .f32) (l2 : Vec F S1024x1 .i32) (l3 : Vec F S1x512 .i32) (xo s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xo
            ∗ owns (c : Thread nD τ) arg7 fullShare (newMax i x0 x1 l2 l3 s0)
            ∗ owns (c : Thread nD τ) arg8 fullShare (newMin x0 x1 l2 l3 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, harg7.read_unread, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, harg8.read_unread, View.ld_unit_zero (S := S1024x256) hz, View.ld_unit_zero (S := S512x256) hz, View.ld_unit_zero (S := S1024x1) hz, View.ld_unit_zero (S := S1x512) hz]
    rfl

/-- The last column block: as in the middle, and the output block (holding anything) ends at the row losses of the two folds. -/
theorem run_last (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hc0 : ¬condFirst i) (hc1 : condLast i) (x0 : Vec F S1024x256 .f32) (x1 : Vec F S512x256 .f32) (l2 : Vec F S1024x1 .i32) (l3 : Vec F S1x512 .i32) (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (outOf (newMax i x0 x1 l2 l3 s0) (newMin x0 x1 l2 l3 s1))
            ∗ owns (c : Thread nD τ) arg7 fullShare (newMax i x0 x1 l2 l3 s0)
            ∗ owns (c : Thread nD τ) arg8 fullShare (newMin x0 x1 l2 l3 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    on_goal 2 => iexact H4
    ipureintro
    sl_unfold_words
    refine (read_cons _ _ hz _ _ _).trans ?_
    simp only [View.readAt_eq_ld, harg2.read_unread, harg3.read_unread, harg4.read_unread, harg5.read_unread, harg7.read_unread, harg8.read_unread, View.readCov_unit_zero (S := S1024x1) _ hz, View.ld_unit_zero (S := S1024x256) hz, View.ld_unit_zero (S := S512x256) hz, View.ld_unit_zero (S := S1024x1) hz, View.ld_unit_zero (S := S1x512) hz]
    rfl
  isplitl [H5]
  · iexists _; isplitr
    on_goal 2 => iexact H5
    ipureintro
    sl_unfold_words
    refine (read_cons _ _ hz _ _ _).trans ?_
    simp only [View.readAt_eq_ld, harg2.read_unread, harg3.read_unread, harg4.read_unread, harg5.read_unread, harg7.read_unread, View.ld_unit_zero (S := S1024x256) hz, View.ld_unit_zero (S := S512x256) hz, View.ld_unit_zero (S := S1024x1) hz, View.ld_unit_zero (S := S1x512) hz]
    rfl
  · iexists _; isplitr
    on_goal 2 => iexact H6
    ipureintro
    sl_unfold_words
    refine (read_cons _ _ hz _ _ _).trans ?_
    simp only [View.readAt_eq_ld, harg2.read_unread, harg3.read_unread, harg4.read_unread, harg5.read_unread, harg8.read_unread, View.ld_unit_zero (S := S1024x256) hz, View.ld_unit_zero (S := S512x256) hz, View.ld_unit_zero (S := S1024x1) hz, View.ld_unit_zero (S := S1x512) hz]
    rfl

end Cert.KernelIdeal.Hand

end
-- ==== Proof.KI.Data.lean ====
/-
  The proof data of `KernelIdeal`'s kernel region, and its body obligation.

  After the body at grid point `n` (row block `n / 16`, column block `n % 16`) the two scratch vectors hold
  `scAt n`: one step of the two folds (`stepAt`: the running maximum and minimum taken once more, over this
  point's four blocks) from the reset values at a row block's first column block, and from what the point before
  left elsewhere. The output window's buffer is stored only at a row block's last column block, with the row
  losses of the two folds (`outAt`); elsewhere it is idle. The four inputs are only read. The feature array is
  read through two windows, each holding half of its share.
-/
import proofs.«146683_j3109556322825_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the scratch vectors and the output block hold after each point -/

/-- The scratch vectors' reset values: −∞ for the running maximum, +∞ for the running minimum. -/
def resetSc : Vec F S1024x1 .f32 × Vec F S1024x1 .f32 := (k0_pay4 (F := F), k0_pay5 (F := F))

/-- One step of the two folds at point `t`, over the point's four blocks, from scratch contents `s`. -/
def stepAt (c : Dev nD) (t : Fin cfg0.N) (s : Vec F S1024x1 .f32 × Vec F S1024x1 .f32) : Vec F S1024x1 .f32 × Vec F S1024x1 .f32 :=
  (newMax (grid0.coords t) (iblk m c 0 t) (iblk m c 1 t) (iblk m c 2 t) (iblk m c 3 t) s.1,
   newMin (iblk m c 0 t) (iblk m c 1 t) (iblk m c 2 t) (iblk m c 3 t) s.2)

/-- The scratch vectors after the body at position `n`. -/
def scAt (c : Dev nD) : (n : ℕ) → n < cfg0.N → Vec F S1024x1 .f32 × Vec F S1024x1 .f32
  | 0, hn => stepAt m c ⟨0, hn⟩ resetSc
  | n + 1, hn => stepAt m c ⟨n + 1, hn⟩ (if (n + 1) % 16 = 0 then resetSc else scAt c n (Nat.lt_of_succ_lt hn))

/-- At a row block's first column block: one step from the reset values. -/
theorem scAt_first (c : Dev nD) (t : Fin cfg0.N) (h : t.val % 16 = 0) : scAt m c t.val t.isLt = stepAt m c t resetSc := by
  obtain ⟨n, hn⟩ := t
  cases n with
  | zero => rfl
  | succ n => exact congrArg (stepAt m c ⟨n + 1, hn⟩) (if_pos h)

/-- Elsewhere: one step from what the point before left. -/
theorem scAt_next (c : Dev nD) (t : Fin cfg0.N) (h : ¬t.val % 16 = 0) :
    scAt m c t.val t.isLt = stepAt m c t (scAt m c (t.val - 1) (Nat.lt_of_le_of_lt (Nat.sub_le _ _) t.isLt)) := by
  obtain ⟨n, hn⟩ := t
  cases n with
  | zero => exact absurd (Nat.zero_mod _) h
  | succ n => exact congrArg (stepAt m c ⟨n + 1, hn⟩) (if_neg h)

/-- The output block the body stores at point `t` (meaningful at a row block's last column block; elsewhere the
    window is idle and nothing consults it). -/
def outAt (c : Dev nD) (t : Fin cfg0.N) : Vec F S1024x1 .f32 := outOf (scAt m c t.val t.isLt).1 (scAt m c t.val t.isLt).2

/-! ## The invariant: the scratch vectors at what the point before left -/

def PhiS (c : Dev nD) : (n : ℕ) → n ≤ cfg0.N → sProp 𝕄
  | 0, _ => Pipeline.ΦA spec0 c
  | n + 1, hn => iprop(iprop(owns (c : Thread nD τ) scMax fullShare (scAt m c n hn).1 ∗ owns (c : Thread nD τ) scMin fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (scAt m c n hn).1 ∗ owns (c : Thread nD τ) scMin fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scMax fullShare (scAt m c (n - 1) (by omega)).1 ∗ owns (c : Thread nD τ) scMin fullShare (scAt m c (n - 1) (by omega)).2) ∗ (∃ r, prngReg c r)) := by
  cases n with
  | zero => exact absurd rfl hz
  | succ n => rfl

/-! ## The proof data -/

/-- The arrays as the region finds them; after the body each input's buffer at its block and the output's at
    `outAt`; the invariant `PhiS`; the feature array's share dealt in halves to its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t := by
  -- an input the body only reads: at every point its buffer holds the array's block there (where the pipeline did not
  -- fetch, the block index had not moved); the array is the entry contents, so that block is `iblk`
  have hkeep : ∀ s, (cfg0.win 0).cut (cfg0.grid.coords s) ((dats m 0 c).after 0 s) = (dats m 0 c).blockOf 0 s := fun s => by
    rw [after0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl
theorem before1 (c : Dev nD) (t : Fin cfg0.N) (d) : (dats m 0 c).before 1 t d = iblk m c 1 t := by
  -- an input the body only reads: at every point its buffer holds the array's block there (where the pipeline did not
  -- fetch, the block index had not moved); the array is the entry contents, so that block is `iblk`
  have hkeep : ∀ s, (cfg0.win 1).cut (cfg0.grid.coords s) ((dats m 0 c).after 1 s) = (dats m 0 c).blockOf 1 s := fun s => by
    rw [after1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl
theorem before2 (c : Dev nD) (t : Fin cfg0.N) (d) : (dats m 0 c).before 2 t d = iblk m c 2 t := by
  -- an input the body only reads: at every point its buffer holds the array's block there (where the pipeline did not
  -- fetch, the block index had not moved); the array is the entry contents, so that block is `iblk`
  have hkeep : ∀ s, (cfg0.win 2).cut (cfg0.grid.coords s) ((dats m 0 c).after 2 s) = (dats m 0 c).blockOf 2 s := fun s => by
    rw [after2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl
theorem before3 (c : Dev nD) (t : Fin cfg0.N) (d) : (dats m 0 c).before 3 t d = iblk m c 3 t := by
  -- an input the body only reads: at every point its buffer holds the array's block there (where the pipeline did not
  -- fetch, the block index had not moved); the array is the entry contents, so that block is `iblk`
  have hkeep : ∀ s, (cfg0.win 3).cut (cfg0.grid.coords s) ((dats m 0 c).after 3 s) = (dats m 0 c).blockOf 3 s := fun s => by
    rw [after3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl

/-- At any position the invariant gives the plain one: the scratch vectors at some contents. -/
theorem PhiS_forget (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HM, Hm⟩, Hg⟩
    isplitl [HM Hm]
    · isplitl [HM]
      · iexists _; iexact HM
      · iexists _; iexact Hm
    · iexact Hg

/-! ## The body obligation, at one point -/

/-- What the body is handed at point `t`: the invariant, the core's debts, and the five current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The four inputs are live at every point: the body hands each buffer back at its block. -/
theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]

set_option maxHeartbeats 1600000 in
/-- The body at any point. The inputs' buffers hold their blocks; the point's position in its row block says which
    of the three runs applies. At a first column block the scratch vectors are taken at whatever they hold and left
    one fold step from the reset values; elsewhere they are taken at what the point before left and folded once
    more; at a last column block the output buffer is stored with the row losses of the two folds, and elsewhere
    it is handed back as found. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 128 := lt_of_lt_of_eq t.isLt (show cfg0.N = 128 from N_0)
  by_cases h0 : t.val % 16 = 0
  · -- first column block
    have hc0 : condFirst (grid0.coords t) := (hcondFirst t).mpr h0
    have hc1 : ¬condLast (grid0.coords t) := fun h => by have := (hcondLast t).mp h; omega
    rw [Dat.leavesExact_idle (dats m 0 c) 4 t (idleAt4 t hc1) (noFlush4 t hc1)]
    rw [scAt_first m c t h0]; unfold stepAt resetSc; dsimp only
    refine BIBase.Entails.trans (sep_mono_left (PhiS_forget m c _ _)) ?_
    rw [PhiA0_eq]
    iintro ⟨⟨⟨HM, Hm⟩, Hg⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HM]; · iexact HM
    isplitl [Hm]; · iexact Hm
    iintro ⟨H0, H1, H2, H3, H4, HM, Hm⟩
    isplitl [HM Hm Hg]
    · isplitl [HM Hm]
      · isplitl [HM]
        · iexact HM
        · iexact Hm
      · iexact Hg
    isplitl [Ho]; · iexact Ho
    isplitl [H0]; · iexact H0
    isplitl [H1]; · iexact H1
    isplitl [H2]; · iexact H2
    isplitl [H3]; · iexact H3
    iexists _; iexact H4
  · have hc0 : ¬condFirst (grid0.coords t) := fun h => h0 ((hcondFirst t).mp h)
    have hz : t.val ≠ 0 := fun e => h0 (by rw [e])
    rw [PhiS_pos m c _ _ hz, scAt_next m c t h0]; unfold stepAt; dsimp only
    by_cases h1 : t.val % 16 = 15
    · -- last column block
      have hc1 : condLast (grid0.coords t) := (hcondLast t).mpr h1
      rw [show (dats m 0 c).leavesExact 4 t = owns (c : Thread nD τ) (ms4 t) fullShare ((dats m 0 c).after 4 t) from by
        unfold Dat.leavesExact; rw [liveAt4 t hc1]]
      rw [after4]; unfold outAt; rw [scAt_next m c t h0]; unfold stepAt; dsimp only
      iintro ⟨⟨⟨HM, Hm⟩, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [HM]; · iexact HM
      isplitl [Hm]; · iexact Hm
      iintro ⟨H0, H1, H2, H3, H4, HM, Hm⟩
      isplitl [HM Hm Hg]
      · isplitl [HM Hm]
        · isplitl [HM]
          · iexact HM
          · iexact Hm
        · iexact Hg
      isplitl [Ho]; · iexact Ho
      isplitl [H0]; · iexact H0
      isplitl [H1]; · iexact H1
      isplitl [H2]; · iexact H2
      isplitl [H3]; · iexact H3
      iexact H4
    · -- a middle column block
      have hc1 : ¬condLast (grid0.coords t) := fun h => h1 ((hcondLast t).mp h)
      rw [Dat.leavesExact_idle (dats m 0 c) 4 t (idleAt4 t hc1) (noFlush4 t hc1)]
      iintro ⟨⟨⟨HM, Hm⟩, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scMax (Memref.isWhole_whole _) scMin (Memref.isWhole_whole _) hc0 hc1 (iblk m c 0 t) (iblk m c 1 t) (iblk m c 2 t) (iblk m c 3 t) ((dats m 0 c).before 4 t d4) _ _ Set.univ _)
      isplitl [H0]; · iexact H0
      isplitl [H1]; · iexact H1
      isplitl [H2]; · iexact H2
      isplitl [H3]; · iexact H3
      isplitl [H4]; · iexact H4
      isplitl [HM]; · iexact HM
      isplitl [Hm]; · iexact Hm
      iintro ⟨H0, H1, H2, H3, H4, HM, Hm⟩
      isplitl [HM Hm Hg]
      · isplitl [HM Hm]
        · isplitl [HM]
          · iexact HM
          · iexact Hm
        · iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := by
  intro t
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the plain one back: the scratch vectors' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

end Cert.KernelIdeal.Hand

end
-- ==== Proof.Spec.lean ====
/-
  The mathematics both programs compute, stated once over plain index types, at the extended reals.

  Rows are the 8192 feature vectors `x r : Fin 256 → EReal`; `lab r` is row `r`'s label word.
  * `sqn x r` is the squared norm of row `r`, `gram x r c` the inner product of rows `r` and `c`,
    `sq x r c = max (|x r|² + |x c|² − 2·⟨x r, x c⟩) 0` the clamped squared distance and `dist x r c` its
    guarded square root (zero where the clamped square is not positive).
  * a pair `(r, c)` is a positive when the labels agree and `r ≠ c`, a negative when the labels differ;
    `rowMax` is the largest distance from `r` to a positive (−∞ when there is none) and `rowMin` the smallest
    distance to a negative (+∞ when there is none): folds of `max` / `min` over all 8192 columns.
  * the row's hinge loss is `max 0 (margin + a − b)`, with `a` the hardest positive distance (0 when the row has
    no positive) and `b` the hardest negative distance (10⁶ when the row has no negative). `lossK` decides
    "has none" by comparing the fold with its sentinel, `lossR` by the disjunction of the mask over the row;
    `mean` averages the 8192 row losses.
-/
import Idealize.ShloMosaic.PureOps.Ideal

noncomputable section

namespace Cert.Spec

open Idealize.ShloMosaic

/-- The float words the two programs spell, read at the extended reals. -/
abbrev zero : EReal := Ideal.ofBits .f32 0x00000000#32
abbrev one : EReal := Ideal.ofBits .f32 0x3F800000#32
abbrev two : EReal := Ideal.ofBits .f32 0x40000000#32
abbrev negInf : EReal := Ideal.ofBits .f32 0xFF800000#32
abbrev posInf : EReal := Ideal.ofBits .f32 0x7F800000#32
abbrev margin : EReal := Ideal.ofBits .f32 0x3E99999A#32
abbrev fallback : EReal := Ideal.ofBits .f32 0x49742400#32
abbrev count : EReal := Ideal.ofBits .f32 0x46000000#32

/-- The guarded distance of two feature vectors `a`, `b`. -/
def sqOf (a b : Fin 256 → EReal) : EReal :=
  max (((∑ k : Fin 256, a k * a k) + (∑ k : Fin 256, b k * b k)) - two * (∑ k : Fin 256, a k * b k)) zero

def distOf (a b : Fin 256 → EReal) : EReal :=
  Scalar.select (Ideal.cmp .ogt (sqOf a b) zero)
    (Ideal.sqrt (Scalar.select (Ideal.cmp .ogt (sqOf a b) zero) (sqOf a b) one)) zero

/-- The bit "row `r` is not column `c`". -/
def offDiag (r c : Fin 8192) : BitVec 1 := if r = c then 0#1 else 1#1

variable (x : Fin 8192 → Fin 256 → EReal) (lab : Fin 8192 → BitVec 32)

def dist (r c : Fin 8192) : EReal := distOf (x r) (x c)

def same (r c : Fin 8192) : BitVec 1 := IntOp.cmpi .eq (lab r) (lab c)
def pos (r c : Fin 8192) : BitVec 1 := IntOp.andi (same lab r c) (offDiag r c)
def neg (r c : Fin 8192) : BitVec 1 := ~~~ (same lab r c)

/-- The distance where the pair is a positive, −∞ elsewhere; and where it is a negative, +∞ elsewhere. -/
def posVal (r c : Fin 8192) : EReal := Scalar.select (pos lab r c) (dist x r c) negInf
def negVal (r c : Fin 8192) : EReal := Scalar.select (neg lab r c) (dist x r c) posInf

def rowMax (r : Fin 8192) : EReal := (Finset.univ : Finset (Fin 8192)).fold max negInf (posVal x lab r)
def rowMin (r : Fin 8192) : EReal := (Finset.univ : Finset (Fin 8192)).fold min posInf (negVal x lab r)

def hinge (a b : EReal) : EReal := max zero ((margin + a) - b)

/-- The row loss with "no positive / no negative" read off the folds' sentinels. -/
def lossK (r : Fin 8192) : EReal :=
  hinge (Scalar.select (Ideal.cmp .oeq (rowMax x lab r) negInf) zero (rowMax x lab r))
    (Scalar.select (Ideal.cmp .oeq (rowMin x lab r) posInf) fallback (rowMin x lab r))

/-- The bit "row `r` has a positive", and "row `r` has a negative". -/
def anyPos (r : Fin 8192) : BitVec 1 := if ∃ c : Fin 8192, pos lab r c = 1#1 then 1#1 else 0#1
def anyNeg (r : Fin 8192) : BitVec 1 := if ∃ c : Fin 8192, neg lab r c = 1#1 then 1#1 else 0#1

/-- The row loss with "has a positive / has a negative" as the disjunction of the mask over the row. -/
def lossR (r : Fin 8192) : EReal :=
  hinge (Scalar.select (anyPos lab r) (rowMax x lab r) zero)
    (Scalar.select (anyNeg lab r) (rowMin x lab r) fallback)

/-- The mean of 8192 row losses: the sum from zero, divided by the count. -/
def mean (v : Fin 8192 → EReal) : EReal := Ideal.div (zero + ∑ r : Fin 8192, v r) count

/-! ## The same folds taken column block by column block (16 blocks of 512 columns) -/

/-- Column `q` of column block `j`. -/
def col (j : Fin 16) (q : Fin 512) : Fin 8192 := ⟨j.val * 512 + q.val, by have := j.isLt; have := q.isLt; omega⟩

def blkMax (r : Fin 8192) (j : Fin 16) : EReal :=
  (Finset.univ : Finset (Fin 512)).fold max negInf (fun q => posVal x lab r (col j q))
def blkMin (r : Fin 8192) (j : Fin 16) : EReal :=
  (Finset.univ : Finset (Fin 512)).fold min posInf (fun q => negVal x lab r (col j q))

/-- The running maximum after the first `n` column blocks, from −∞; the running minimum, from +∞. -/
def accMax (r : Fin 8192) : ℕ → EReal
  | 0 => negInf
  | n + 1 => max (accMax r n) (if h : n < 16 then blkMax x lab r ⟨n, h⟩ else negInf)
def accMin (r : Fin 8192) : ℕ → EReal
  | 0 => posInf
  | n + 1 => min (accMin r n) (if h : n < 16 then blkMin x lab r ⟨n, h⟩ else posInf)

/-- The row loss from the two running folds after all sixteen blocks. -/
def lossAcc (r : Fin 8192) : EReal :=
  hinge (Scalar.select (Ideal.cmp .oeq (accMax x lab r 16) negInf) zero (accMax x lab r 16))
    (Scalar.select (Ideal.cmp .oeq (accMin x lab r 16) posInf) fallback (accMin x lab r 16))

end Cert.Spec

end
-- ==== Proof.SpecMath.lean ====
/-
  The row folds of the specification, read as lattice suprema and infima over the extended reals.

  * A fold of max from −∞ is the supremum of the family, a fold of min from +∞ its infimum. The 8192 columns are
    the disjoint union of sixteen blocks of 512 (every column is 512·j + q for exactly one block j and offset q),
    so the supremum over all columns is the supremum of the sixteen block suprema, which is what the running fold
    holds after sixteen steps; dually for the infimum.
  * The guarded distance is never negative: it is zero unless the clamped square is positive, and the square root
    of a positive extended real (a positive real, or +∞) is nonnegative. So a row's largest positive distance is −∞
    exactly when the row has no positive: the sentinel test and the mask disjunction agree.
  * When every feature is a real number the clamped square is a real number (finite sums and products of reals),
    its square root is a real, and the guarded distance is below +∞. So a row's smallest negative distance is +∞
    exactly when the row has no negative.
-/
import proofs.«146683_j3109556322825_1_alg».proof.Proof.Spec
import Mathlib.Data.Finset.Lattice.Fold
import Mathlib.Data.EReal.Basic
import Mathlib.Data.EReal.Operations

noncomputable section

namespace Cert.Spec

open Idealize.ShloMosaic

/-! ## The literals -/

theorem negInf_eq : negInf = ⊥ := by simp [Ideal.ofBits, Ideal.ieee]
theorem posInf_eq : posInf = ⊤ := by simp [Ideal.ofBits, Ideal.ieee]
theorem zero_eq : zero = 0 := by simp [Ideal.ofBits, Ideal.ieee]

/-- The word for 2.0 denotes a real number (which one does not matter below). -/
theorem two_real : ∃ t : ℝ, two = (t : EReal) := by
  simp only [two, Ideal.ofBits, Ideal.ieee]
  simp
  exact ⟨_, rfl⟩

/-! ## Folds of max / min as suprema / infima -/

theorem fold_max_eq_sup {ι : Type} (s : Finset ι) (f : ι → EReal) : s.fold max negInf f = s.sup f := by
  rw [negInf_eq]; rfl

theorem fold_min_eq_inf {ι : Type} (s : Finset ι) (f : ι → EReal) : s.fold min posInf f = s.inf f := by
  rw [posInf_eq]; rfl

/-- Every column lies in exactly one block: here, that it lies in some block. -/
theorem col_surj (c : Fin 8192) : ∃ j q, col j q = c :=
  ⟨⟨c.val / 512, by have := c.isLt; omega⟩, ⟨c.val % 512, Nat.mod_lt _ (by norm_num)⟩,
    Fin.ext (by show c.val / 512 * 512 + c.val % 512 = c.val; omega)⟩

variable (x : Fin 8192 → Fin 256 → EReal) (lab : Fin 8192 → BitVec 32)

/-- What the running maximum takes in at step i. -/
def stepMax (r : Fin 8192) (i : ℕ) : EReal := if h : i < 16 then blkMax x lab r ⟨i, h⟩ else negInf
def stepMin (r : Fin 8192) (i : ℕ) : EReal := if h : i < 16 then blkMin x lab r ⟨i, h⟩ else posInf

theorem stepMax_of_lt (r : Fin 8192) {i : ℕ} (h : i < 16) :
    stepMax x lab r i = Finset.univ.sup (fun q => posVal x lab r (col ⟨i, h⟩ q)) := by
  rw [stepMax, dif_pos h, blkMax, fold_max_eq_sup]

theorem stepMin_of_lt (r : Fin 8192) {i : ℕ} (h : i < 16) :
    stepMin x lab r i = Finset.univ.inf (fun q => negVal x lab r (col ⟨i, h⟩ q)) := by
  rw [stepMin, dif_pos h, blkMin, fold_min_eq_inf]

/-- The running maximum after n steps is the supremum of the first n step values. -/
theorem accMax_eq_sup (r : Fin 8192) (n : ℕ) : accMax x lab r n = (Finset.range n).sup (stepMax x lab r) := by
  induction n with
  | zero => show negInf = _; rw [negInf_eq]; rfl
  | succ n ih =>
    show max (accMax x lab r n) (stepMax x lab r n) = _
    rw [ih, Finset.range_add_one, Finset.sup_insert]
    exact max_comm _ _

theorem accMin_eq_inf (r : Fin 8192) (n : ℕ) : accMin x lab r n = (Finset.range n).inf (stepMin x lab r) := by
  induction n with
  | zero => show posInf = _; rw [posInf_eq]; rfl
  | succ n ih =>
    show min (accMin x lab r n) (stepMin x lab r n) = _
    rw [ih, Finset.range_add_one, Finset.inf_insert]
    exact min_comm _ _

theorem accMax_sixteen (r : Fin 8192) : accMax x lab r 16 = rowMax x lab r := by
  rw [accMax_eq_sup, rowMax, fold_max_eq_sup]
  apply le_antisymm
  · refine Finset.sup_le fun i hi => ?_
    have h : i < 16 := Finset.mem_range.1 hi
    rw [stepMax_of_lt x lab r h]
    exact Finset.sup_le fun q _ => Finset.le_sup (f := posVal x lab r) (Finset.mem_univ _)
  · refine Finset.sup_le fun c _ => ?_
    obtain ⟨j, q, rfl⟩ := col_surj c
    refine le_trans ?_ (Finset.le_sup (f := stepMax x lab r) (Finset.mem_range.2 j.isLt))
    rw [stepMax_of_lt x lab r j.isLt]
    exact Finset.le_sup (f := fun q => posVal x lab r (col ⟨j.val, j.isLt⟩ q)) (Finset.mem_univ q)

theorem accMin_sixteen (r : Fin 8192) : accMin x lab r 16 = rowMin x lab r := by
  rw [accMin_eq_inf, rowMin, fold_min_eq_inf]
  apply le_antisymm
  · refine Finset.le_inf fun c _ => ?_
    obtain ⟨j, q, rfl⟩ := col_surj c
    refine le_trans (Finset.inf_le (f := stepMin x lab r) (Finset.mem_range.2 j.isLt)) ?_
    rw [stepMin_of_lt x lab r j.isLt]
    exact Finset.inf_le (f := fun q => negVal x lab r (col ⟨j.val, j.isLt⟩ q)) (Finset.mem_univ q)
  · refine Finset.le_inf fun i hi => ?_
    have h : i < 16 := Finset.mem_range.1 hi
    rw [stepMin_of_lt x lab r h]
    exact Finset.le_inf fun q _ => Finset.inf_le (f := negVal x lab r) (Finset.mem_univ _)

theorem lossAcc_eq_lossK (r : Fin 8192) : lossAcc x lab r = lossK x lab r := by
  rw [lossAcc, lossK, accMax_sixteen, accMin_sixteen]

/-! ## The selects as conditionals -/

theorem select_cmp_ogt {α : Type} (u v : EReal) (a b : α) :
    Scalar.select (Ideal.cmp .ogt u v) a b = if v < u then a else b := by
  by_cases h : v < u <;> simp [Scalar.select, Ideal.cmp, h]

theorem select_cmp_oeq {α : Type} (u v : EReal) (a b : α) :
    Scalar.select (Ideal.cmp .oeq u v) a b = if u = v then a else b := by
  by_cases h : u = v <;> simp [Scalar.select, Ideal.cmp, h]

/-! ## The guarded distance is nonnegative -/

theorem sqrt_nonneg_of_pos {y : EReal} (h : 0 < y) : 0 ≤ Ideal.sqrt y := by
  induction y using EReal.rec with
  | bot => exact absurd h not_lt_bot
  | coe t =>
    have ht : 0 < t := by exact_mod_cast h
    rw [Ideal.sqrt_coe, if_neg (not_lt.2 ht.le)]
    exact EReal.coe_nonneg.2 (Real.sqrt_nonneg t)
  | top => rw [Ideal.sqrt_top]; exact le_top

theorem distOf_eq (a b : Fin 256 → EReal) :
    distOf a b = if zero < sqOf a b then Ideal.sqrt (sqOf a b) else zero := by
  unfold distOf
  simp only [select_cmp_ogt]
  by_cases h : zero < sqOf a b <;> simp [h]

theorem distOf_nonneg (a b : Fin 256 → EReal) : 0 ≤ distOf a b := by
  rw [distOf_eq, zero_eq]
  split_ifs with h
  exacts [sqrt_nonneg_of_pos h, le_refl _]

/-! ## "No positive" two ways -/

theorem posVal_eq_bot_iff (r c : Fin 8192) : posVal x lab r c = ⊥ ↔ ¬ pos lab r c = 1#1 := by
  unfold posVal Scalar.select
  by_cases h : pos lab r c = 1
  · rw [if_pos h]
    constructor
    · intro hb
      have h0 := distOf_nonneg (x r) (x c)
      rw [dist] at hb
      rw [hb] at h0
      exact absurd h0 (by simp)
    · intro hn; exact absurd h hn
  · rw [if_neg h, negInf_eq]
    exact ⟨fun _ => h, fun _ => rfl⟩

theorem rowMax_eq_bot_iff (r : Fin 8192) : rowMax x lab r = ⊥ ↔ ¬ ∃ c : Fin 8192, pos lab r c = 1#1 := by
  rw [rowMax, fold_max_eq_sup, Finset.sup_eq_bot_iff]
  simp only [Finset.mem_univ, true_implies, posVal_eq_bot_iff, not_exists]

/-! ## Real features give real distances -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real (a b : Fin 256 → EReal) (a' b' : Fin 256 → ℝ) (ha : ∀ k, a k = a' k) (hb : ∀ k, b k = b' k) :
    ∑ k : Fin 256, a k * b k = ((∑ k : Fin 256, a' k * b' k : ℝ) : EReal) := by
  rw [coe_sum]
  exact Finset.sum_congr rfl fun k _ => by rw [ha k, hb k, EReal.coe_mul]

theorem sqOf_real (a b : Fin 256 → EReal) (ha : ∀ k, ∃ t : ℝ, a k = (t : EReal)) (hb : ∀ k, ∃ t : ℝ, b k = (t : EReal)) :
    ∃ s : ℝ, sqOf a b = (s : EReal) := by
  choose a' ha' using ha
  choose b' hb' using hb
  obtain ⟨t, ht⟩ := two_real
  refine ⟨max (((∑ k, a' k * a' k) + (∑ k, b' k * b' k)) - t * (∑ k, a' k * b' k)) 0, ?_⟩
  rw [sqOf, sum_mul_real a a a' a' ha' ha', sum_mul_real b b b' b' hb' hb', sum_mul_real a b a' b' ha' hb', ht, zero_eq,
    ← EReal.coe_add, ← EReal.coe_mul, ← EReal.coe_sub, ← EReal.coe_zero]
  exact (EReal.coe_strictMono.monotone.map_max).symm

theorem distOf_ne_top (a b : Fin 256 → EReal) (ha : ∀ k, ∃ t : ℝ, a k = (t : EReal)) (hb : ∀ k, ∃ t : ℝ, b k = (t : EReal)) :
    distOf a b ≠ ⊤ := by
  obtain ⟨s, hs⟩ := sqOf_real a b ha hb
  rw [distOf_eq, hs]
  split_ifs with h
  · rw [Ideal.sqrt_coe]
    split_ifs <;> simp
  · rw [zero_eq]; simp

/-! ## "No negative" two ways -/

theorem negVal_eq_top_iff (hfin : ∀ r k, ∃ a : ℝ, x r k = (a : EReal)) (r c : Fin 8192) :
    negVal x lab r c = ⊤ ↔ ¬ neg lab r c = 1#1 := by
  unfold negVal Scalar.select
  by_cases h : neg lab r c = 1
  · rw [if_pos h]
    constructor
    · intro ht; exact absurd ht (distOf_ne_top (x r) (x c) (hfin r) (hfin c))
    · intro hn; exact absurd h hn
  · rw [if_neg h, posInf_eq]
    exact ⟨fun _ => h, fun _ => rfl⟩

theorem rowMin_eq_top_iff (hfin : ∀ r k, ∃ a : ℝ, x r k = (a : EReal)) (r : Fin 8192) :
    rowMin x lab r = ⊤ ↔ ¬ ∃ c : Fin 8192, neg lab r c = 1#1 := by
  rw [rowMin, fold_min_eq_inf, Finset.inf_eq_top_iff]
  simp only [Finset.mem_univ, true_implies, negVal_eq_top_iff x lab hfin, not_exists]

/-! ## The two row losses agree -/

theorem selMax_eq (r : Fin 8192) :
    Scalar.select (Ideal.cmp .oeq (rowMax x lab r) negInf) zero (rowMax x lab r)
      = Scalar.select (anyPos lab r) (rowMax x lab r) zero := by
  rw [select_cmp_oeq, negInf_eq]
  unfold anyPos Scalar.select
  by_cases h : ∃ c : Fin 8192, pos lab r c = 1#1
  · have hne : ¬ rowMax x lab r = ⊥ := fun e => (rowMax_eq_bot_iff x lab r).1 e h
    rw [if_neg hne, if_pos h, if_pos (show (1#1 : BitVec 1) = 1 from rfl)]
  · have he : rowMax x lab r = ⊥ := (rowMax_eq_bot_iff x lab r).2 h
    rw [if_pos he, if_neg h, if_neg (show ¬ (0#1 : BitVec 1) = 1 by decide)]

theorem selMin_eq (hfin : ∀ r k, ∃ a : ℝ, x r k = (a : EReal)) (r : Fin 8192) :
    Scalar.select (Ideal.cmp .oeq (rowMin x lab r) posInf) fallback (rowMin x lab r)
      = Scalar.select (anyNeg lab r) (rowMin x lab r) fallback := by
  rw [select_cmp_oeq, posInf_eq]
  unfold anyNeg Scalar.select
  by_cases h : ∃ c : Fin 8192, neg lab r c = 1#1
  · have hne : ¬ rowMin x lab r = ⊤ := fun e => (rowMin_eq_top_iff x lab hfin r).1 e h
    rw [if_neg hne, if_pos h, if_pos (show (1#1 : BitVec 1) = 1 from rfl)]
  · have he : rowMin x lab r = ⊤ := (rowMin_eq_top_iff x lab hfin r).2 h
    rw [if_pos he, if_neg h, if_neg (show ¬ (0#1 : BitVec 1) = 1 by decide)]

theorem lossK_eq_lossR (hfin : ∀ r k, ∃ a : ℝ, x r k = (a : EReal)) (r : Fin 8192) : lossK x lab r = lossR x lab r := by
  rw [lossK, lossR, selMax_eq x lab r, selMin_eq x lab hfin r]

end Cert.Spec

end
-- ==== Proof.KI.Pay.lean ====
/-
  The body's stored values read at a row, at the extended reals.

  With `x0` the 1024 × 256 row block, `x1` the 512 × 256 column block and `l2`, `l3` their label words: entry
  (p, q) of the distance tile is the guarded distance of row `p` of `x0` and row `q` of `x1`; entry (p, q) of
  the label tile says whether the two labels agree; the running maximum at row `p` is the maximum of what the
  scratch held there and the fold of `max` from −∞, over the tile's 512 columns, of the distance where the pair
  is a positive (labels agree and the global row is not the global column) and −∞ elsewhere; the running
  minimum likewise with `min`, +∞ and the negatives; the output at row `p` is the hinge of the two folds with
  their sentinels replaced.
-/
import proofs.«146683_j3109556322825_1_alg».proof.Proof.KI.Base
import proofs.«146683_j3109556322825_1_alg».proof.Proof.SpecMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.ValueIdx

/-- Row `p` of the row block, row `q` of the column block. -/
def row0 (x0 : Vec Ideal S1024x256 .f32) (p : Fin 1024) : Fin 256 → EReal := fun k => x0 (ix2 p k)
def row1 (x1 : Vec Ideal S512x256 .f32) (q : Fin 512) : Fin 256 → EReal := fun k => x1 (ix2 q k)

/-- The global row of row `p` of row block `i 0`; the global column of column `q` of column block `i 1`. -/
def rowOf (i : grid0.Coords) (p : Fin 1024) : Fin 8192 :=
  ⟨(i 0).val * 1024 + p.val, by have h : (i 0).val < 8 := (i 0).isLt; have := p.isLt; omega⟩
def colOf (i : grid0.Coords) (q : Fin 512) : Fin 8192 :=
  ⟨(i 1).val * 512 + q.val, by have h : (i 1).val < 16 := (i 1).isLt; have := q.isLt; omega⟩

/-! ## Layout operations with a trailing unit axis, read at coordinates -/

section Layout
variable {α : Type}

/-- A column `[a, 1]` broadcast along the lanes to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The label tile and the two resets -/

theorem pay7_apply (l2 : Vec Ideal S1024x1 .i32) (l3 : Vec Ideal S1x512 .i32) (p : Fin 1024) (q : Fin 512) :
    k0_pay7 (F := Ideal) l2 l3 (ix2 p q) = IntOp.cmpi .eq (l2 (ix2 p 0)) (l3 (ix2 0 q)) := by
  unfold k0_pay7
  show IntOp.cmpi .eq (broadcastTo S1024x512 (shapeCast S1024x1 l2 _) _ (ix2 p q))
    (broadcastTo S1024x512 (shapeCast S1x512 l3 _) _ (ix2 p q)) = _
  rw [broadcastTo_a1_ab_apply, broadcastTo_1b_ab_apply, shapeCast_self, shapeCast_self]

theorem reset_apply (p : Fin 1024) :
    (k0_pay4 (F := Ideal)) (ix2 p 0) = Cert.Spec.negInf ∧ (k0_pay5 (F := Ideal)) (ix2 p 0) = Cert.Spec.posInf := by
  constructor
  · unfold k0_pay4
    rw [shapeCast_self]
    rfl
  · unfold k0_pay5
    rw [shapeCast_self]
    rfl

/-! ## The output block -/

theorem outOf_apply (a b : Vec Ideal S1024x1 .f32) (p : Fin 1024) :
    outOf (F := Ideal) a b (ix2 p 0)
      = Cert.Spec.hinge (Scalar.select (Ideal.cmp .oeq (a (ix2 p 0)) Cert.Spec.negInf) Cert.Spec.zero (a (ix2 p 0)))
          (Scalar.select (Ideal.cmp .oeq (b (ix2 p 0)) Cert.Spec.posInf) Cert.Spec.fallback (b (ix2 p 0))) := by
  unfold outOf k0_pay3 Cert.Spec.hinge
  rfl

/-! ## The three sums of the distance tile -/

/-- The lane sum of the squares of a `1024 × 256` block, kept as a column and spread along the lanes: at `(p, q)` the
    squared norm of row `p`. -/
theorem sqnRow_apply (x0 : FVec Ideal S1024x256 .f32) (h : S1024x256.Reduces [1] S1024) (hφ : FKind.Formats .f32)
    (hacc : (0x00000000#32 : BitVec 32) = 0x00000000#32) (hc : S1024.ShapeCasts S1024x1) (hb : S1024x1.Broadcasts S1024x512)
    (p : Fin 1024) (q : Fin 512) :
    broadcastTo S1024x512 (shapeCast S1024x1 (multiReduction (F := Ideal) .add [1] S1024 (mulf x0 x0) 0x00000000#32 h hφ hacc) hc) hb (ix2 p q)
      = ∑ k : Fin 256, x0 (ix2 p k) * x0 (ix2 p k) := by
  rw [broadcastTo_a1_ab_apply, shapeCast_a_a1_apply]
  refine (Ideal.multiReduction_add_single (mulf x0 x0) 0x00000000#32 h hφ hacc (ix1 p)).trans ?_
  show ∑ k : Fin 256, (mulf x0 x0) (h.lift (ix1 p) k) = _
  refine Finset.sum_congr rfl fun k _ => ?_
  have e : h.lift (ix1 p) k = ix2 p k := funext fun a => match a with
    | ⟨0, _⟩ => Fin.ext rfl
    | ⟨1, _⟩ => Fin.ext rfl
  rw [e]
  rfl

/-- The same for the `512 × 256` block, its column of squared norms turned into a row and spread down the
    sublanes: at `(p, q)` the squared norm of row `q`. -/
theorem sqnCol_apply (x1 : FVec Ideal S512x256 .f32) (h : S512x256.Reduces [1] S512) (hφ : FKind.Formats .f32)
    (hacc : (0x00000000#32 : BitVec 32) = 0x00000000#32) (hc : S512.ShapeCasts S512x1) (ht : S512x1.Transposes [1, 0] S1x512)
    (hb : S1x512.Broadcasts S1024x512) (p : Fin 1024) (q : Fin 512) :
    broadcastTo S1024x512 (transpose S1x512 [1, 0]
        (shapeCast S512x1 (multiReduction (F := Ideal) .add [1] S512 (mulf x1 x1) 0x00000000#32 h hφ hacc) hc) ht) hb (ix2 p q)
      = ∑ k : Fin 256, x1 (ix2 q k) * x1 (ix2 q k) := by
  rw [broadcastTo_1b_ab_apply, transpose_ix2_apply, shapeCast_a_a1_apply]
  refine (Ideal.multiReduction_add_single (mulf x1 x1) 0x00000000#32 h hφ hacc (ix1 q)).trans ?_
  show ∑ k : Fin 256, (mulf x1 x1) (h.lift (ix1 q) k) = _
  refine Finset.sum_congr rfl fun k _ => ?_
  have e : h.lift (ix1 q) k = ix2 q k := funext fun a => match a with
    | ⟨0, _⟩ => Fin.ext rfl
    | ⟨1, _⟩ => Fin.ext rfl
  rw [e]
  rfl

/-! ## The matrix product of the row block with the transposed column block -/

theorem lhs_gram_0 (i : S1024x512.Idx) (c : dot_S1024x256_S256x512_S1024x512_1_0_0_1_n_n.contr.Idx) :
    (dot_S1024x256_S256x512_S1024x512_1_0_0_1_n_n.lhsIdx i c 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_gram_1 (i : S1024x512.Idx) (c : dot_S1024x256_S256x512_S1024x512_1_0_0_1_n_n.contr.Idx) :
    (dot_S1024x256_S256x512_S1024x512_1_0_0_1_n_n.lhsIdx i c 1).val = (c ⟨0, by decide⟩).val :=
  dot_S1024x256_S256x512_S1024x512_1_0_0_1_n_n.lhsIdx_val_of_single rfl i c
theorem rhs_gram_0 (i : S1024x512.Idx) (c : dot_S1024x256_S256x512_S1024x512_1_0_0_1_n_n.contr.Idx) :
    (dot_S1024x256_S256x512_S1024x512_1_0_0_1_n_n.rhsIdx i c 0).val = (c ⟨0, by decide⟩).val :=
  dot_S1024x256_S256x512_S1024x512_1_0_0_1_n_n.rhsIdx_val_of_single rfl i c
theorem rhs_gram_1 (i : S1024x512.Idx) (c : dot_S1024x256_S256x512_S1024x512_1_0_0_1_n_n.contr.Idx) :
    (dot_S1024x256_S256x512_S1024x512_1_0_0_1_n_n.rhsIdx i c 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into a zero accumulator, read at `(p, q)`: the sum over the 256 features of row `p` of the left
    operand times column `q` of the right operand. -/
theorem matmul_zero_apply (x0 : FVec Ideal S1024x256 .f32) (y : FVec Ideal S256x512 .f32) (p : Fin 1024) (q : Fin 512) :
    matmul dot_S1024x256_S256x512_S1024x512_1_0_0_1_n_n (some .fp32) x0 y (constant (F := Ideal) S1024x512 .f32 0x00000000#32) (ix2 p q)
      = ∑ k : Fin 256, x0 (ix2 p k) * y (ix2 k q) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact lhs_gram_0 _ _
    | ⟨1, _⟩ => exact (lhs_gram_1 _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (rhs_gram_0 _ _).trans hk
    | ⟨1, _⟩ => exact rhs_gram_1 _ _)
  rw [el, er]

/-- With the right operand the transposed column block: the inner product of row `p` and row `q`. -/
theorem gram_apply (x0 : FVec Ideal S1024x256 .f32) (x1 : FVec Ideal S512x256 .f32) (ht : S512x256.Transposes [1, 0] S256x512)
    (p : Fin 1024) (q : Fin 512) :
    matmul dot_S1024x256_S256x512_S1024x512_1_0_0_1_n_n (some .fp32) x0 (transpose S256x512 [1, 0] x1 ht) (constant (F := Ideal) S1024x512 .f32 0x00000000#32) (ix2 p q)
      = ∑ k : Fin 256, x0 (ix2 p k) * x1 (ix2 q k) := by
  rw [matmul_zero_apply]
  refine Finset.sum_congr rfl fun k _ => ?_
  rw [transpose_ix2_apply]

/-! ## The distance tile -/

/-- A square root at an index is the root of the element. -/
theorem sqrt_apply {s : Shape} {φ : FTy} (a : FVec Ideal s φ) (i : s.Idx) : sqrt a i = Ideal.sqrt (a i) := rfl

theorem pay6_apply (x0 : Vec Ideal S1024x256 .f32) (x1 : Vec Ideal S512x256 .f32) (p : Fin 1024) (q : Fin 512) :
    k0_pay6 (F := Ideal) x0 x1 (ix2 p q) = Cert.Spec.distOf (row0 x0 p) (row1 x1 q) := by
  unfold k0_pay6 Cert.Spec.distOf Cert.Spec.sqOf
  simp only [select_apply, cmpf_apply, sqrt_apply, maximumf_apply, subf_apply, addf_apply, mulf_apply, broadcast_apply]
  rw [sqnRow_apply, sqnCol_apply, gram_apply]
  rfl

/-! ## The two running folds -/

section Words
variable {s : Shape} {w : ℕ}

/-- The integer operations of the mask read at an index: each acts element by element. -/
theorem andi_apply (x y : IVec s w) (i : s.Idx) : andi x y i = IntOp.andi (x i) (y i) := rfl
theorem xori_apply (x y : IVec s w) (i : s.Idx) : xori x y i = IntOp.xori (x i) (y i) := rfl
theorem addi_apply (x y : IVec s w) (i : s.Idx) : addi x y i = IntOp.addi (x i) (y i) := rfl
theorem cmpi_apply (c : CmpIPredicate) (x y : IVec s w) (i : s.Idx) : cmpi c x y i = IntOp.cmpi c (x i) (y i) := rfl

end Words

/-- Two naturals below 2³² have the same 32-bit word only when they are equal. -/
theorem ofNat32_inj {A B : ℕ} (hA : A < 4294967296) (hB : B < 4294967296) (h : BitVec.ofNat 32 A = BitVec.ofNat 32 B) : A = B := by
  have e := congrArg BitVec.toNat h
  simp only [BitVec.toNat_ofNat] at e
  omega

/-- The not-self bit: the global row `1024·i₀ + p` and the global column `512·i₁ + q`, computed in 32-bit words
    (no wrap-around: both are below 8192), are compared for equality and the bit is negated. -/
theorem notSelf_eq (i : grid0.Coords) (p : Fin 1024) (q : Fin 512) :
    IntOp.xori (IntOp.cmpi .eq (IntOp.addi (Scalar.muli (BitVec.ofNat 32 (i 0).val) 1024#32) (BitVec.ofNat 32 p.val))
        (IntOp.addi (Scalar.muli (BitVec.ofNat 32 (i 1).val) 512#32) (BitVec.ofNat 32 q.val))) 1#1
      = Cert.Spec.offDiag (rowOf i p) (colOf i q) := by
  have h0 : (i 0).val < 8 := (i 0).isLt
  have h1 : (i 1).val < 16 := (i 1).isLt
  have hp := p.isLt
  have hq := q.isLt
  have e1 : IntOp.addi (Scalar.muli (BitVec.ofNat 32 (i 0).val) 1024#32) (BitVec.ofNat 32 p.val)
      = BitVec.ofNat 32 ((i 0).val * 1024 + p.val) := by
    apply BitVec.eq_of_toNat_eq
    simp only [IntOp.addi, Scalar.muli, IntOp.muli, BitVec.toNat_add, BitVec.toNat_mul, BitVec.toNat_ofNat]
    omega
  have e2 : IntOp.addi (Scalar.muli (BitVec.ofNat 32 (i 1).val) 512#32) (BitVec.ofNat 32 q.val)
      = BitVec.ofNat 32 ((i 1).val * 512 + q.val) := by
    apply BitVec.eq_of_toNat_eq
    simp only [IntOp.addi, Scalar.muli, IntOp.muli, BitVec.toNat_add, BitVec.toNat_mul, BitVec.toNat_ofNat]
    omega
  rw [e1, e2]
  unfold Cert.Spec.offDiag IntOp.xori IntOp.cmpi
  by_cases h : rowOf i p = colOf i q
  · have hv : (i 0).val * 1024 + p.val = (i 1).val * 512 + q.val := congrArg Fin.val h
    rw [if_pos h, hv]
    simp
  · have hv : ¬ ((i 0).val * 1024 + p.val = (i 1).val * 512 + q.val) := fun e => h (Fin.ext e)
    have hne : ¬ BitVec.ofNat 32 ((i 0).val * 1024 + p.val) = BitVec.ofNat 32 ((i 1).val * 512 + q.val) :=
      fun e => hv (ofNat32_inj (by omega) (by omega) e)
    have hb : (BitVec.ofNat 32 ((i 0).val * 1024 + p.val) == BitVec.ofNat 32 ((i 1).val * 512 + q.val)) = false :=
      beq_eq_false_iff_ne.2 hne
    rw [if_neg h]
    show BitVec.ofBool (BitVec.ofNat 32 ((i 0).val * 1024 + p.val) == BitVec.ofNat 32 ((i 1).val * 512 + q.val)) ^^^ 1#1 = 1#1
    rw [hb]
    decide

/-- A lane minimum over one axis, at the extended reals: the fold of `min` from the accumulator's value over that axis's
    coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane maximum of a `1024 × 512` tile from −∞, kept as a column: at row `p` the fold of `max` over the row. -/
theorem maxRow_apply (v : FVec Ideal S1024x512 .f32) (h : S1024x512.Reduces [1] S1024) (hφ : FKind.Formats .f32)
    (hacc : (0xFF800000#32 : BitVec 32) = 0xFF800000#32) (hc : S1024.ShapeCasts S1024x1) (p : Fin 1024) (u : Fin 1) :
    shapeCast S1024x1 (multiReduction (F := Ideal) .maximumf [1] S1024 v 0xFF800000#32 h hφ hacc) hc (ix2 p u)
      = (Finset.univ : Finset (Fin 512)).fold max Cert.Spec.negInf fun q => v (ix2 p q) := by
  rw [shapeCast_a_a1_apply]
  refine (Ideal.multiReduction_maximumf_single v 0xFF800000#32 h hφ hacc (ix1 p)).trans ?_
  show (Finset.univ : Finset (Fin 512)).fold max Cert.Spec.negInf (fun q => v (h.lift (ix1 p) q)) = _
  refine Finset.fold_congr fun q _ => congrArg v ?_
  exact funext fun a => match a with
    | ⟨0, _⟩ => Fin.ext rfl
    | ⟨1, _⟩ => Fin.ext rfl

/-- The lane minimum from +∞ likewise. -/
theorem minRow_apply (v : FVec Ideal S1024x512 .f32) (h : S1024x512.Reduces [1] S1024) (hφ : FKind.Formats .f32)
    (hacc : (0x7F800000#32 : BitVec 32) = 0x7F800000#32) (hc : S1024.ShapeCasts S1024x1) (p : Fin 1024) (u : Fin 1) :
    shapeCast S1024x1 (multiReduction (F := Ideal) .minimumf [1] S1024 v 0x7F800000#32 h hφ hacc) hc (ix2 p u)
      = (Finset.univ : Finset (Fin 512)).fold min Cert.Spec.posInf fun q => v (ix2 p q) := by
  rw [shapeCast_a_a1_apply]
  refine (multiReduction_minimumf_single v 0x7F800000#32 h hφ hacc (ix1 p)).trans ?_
  show (Finset.univ : Finset (Fin 512)).fold min Cert.Spec.posInf (fun q => v (h.lift (ix1 p) q)) = _
  refine Finset.fold_congr fun q _ => congrArg v ?_
  exact funext fun a => match a with
    | ⟨0, _⟩ => Fin.ext rfl
    | ⟨1, _⟩ => Fin.ext rfl

/-- The sublane counter and the lane counter of the tile, at `(p, q)`: the words of `p` and of `q`. -/
theorem iota0_apply (h : S1024x512.Iotas .tc 32 [0]) (p : Fin 1024) (q : Fin 512) :
    iota .tc S1024x512 32 [0] h (ix2 p q) = BitVec.ofNat 32 p.val :=
  iota_single_apply .tc S1024x512 32 0 h (ix2 p q)
theorem iota1_apply (h : S1024x512.Iotas .tc 32 [1]) (p : Fin 1024) (q : Fin 512) :
    iota .tc S1024x512 32 [1] h (ix2 p q) = BitVec.ofNat 32 q.val :=
  iota_single_apply .tc S1024x512 32 1 h (ix2 p q)

/-- On one bit, exclusive-or with `1` is the negation. -/
theorem xori_one_eq_not (c : BitVec 1) : IntOp.xori c 1#1 = ~~~ c := by
  rcases BitVec.eq_zero_or_eq_one c with h | h <;> subst h <;> decide

theorem newMax_apply (i : grid0.Coords) (x0 : Vec Ideal S1024x256 .f32) (x1 : Vec Ideal S512x256 .f32) (l2 : Vec Ideal S1024x1 .i32)
    (l3 : Vec Ideal S1x512 .i32) (s : Vec Ideal S1024x1 .f32) (p : Fin 1024) :
    newMax (F := Ideal) i x0 x1 l2 l3 s (ix2 p 0)
      = max (s (ix2 p 0)) ((Finset.univ : Finset (Fin 512)).fold max Cert.Spec.negInf fun q =>
          Scalar.select (IntOp.andi (IntOp.cmpi .eq (l2 (ix2 p 0)) (l3 (ix2 0 q))) (Cert.Spec.offDiag (rowOf i p) (colOf i q)))
            (Cert.Spec.distOf (row0 x0 p) (row1 x1 q)) Cert.Spec.negInf) := by
  unfold newMax k0_pay1
  rw [shapeCast_self]
  simp only [maximumf_apply]
  rw [maxRow_apply]
  refine congrArg _ (Finset.fold_congr fun q _ => ?_)
  simp only [select_apply, andi_apply, xori_apply, cmpi_apply, addi_apply, broadcast_apply, constantI_apply]
  rw [iota0_apply, iota1_apply, pay6_apply, pay7_apply, notSelf_eq]
  rfl

theorem newMin_apply (x0 : Vec Ideal S1024x256 .f32) (x1 : Vec Ideal S512x256 .f32) (l2 : Vec Ideal S1024x1 .i32)
    (l3 : Vec Ideal S1x512 .i32) (s : Vec Ideal S1024x1 .f32) (p : Fin 1024) :
    newMin (F := Ideal) x0 x1 l2 l3 s (ix2 p 0)
      = min (s (ix2 p 0)) ((Finset.univ : Finset (Fin 512)).fold min Cert.Spec.posInf fun q =>
          Scalar.select (~~~ (IntOp.cmpi .eq (l2 (ix2 p 0)) (l3 (ix2 0 q))))
            (Cert.Spec.distOf (row0 x0 p) (row1 x1 q)) Cert.Spec.posInf) := by
  unfold newMin k0_pay2
  rw [shapeCast_self]
  simp only [minimumf_apply]
  rw [minRow_apply]
  refine congrArg _ (Finset.fold_congr fun q _ => ?_)
  simp only [select_apply, xori_apply, constantI_apply]
  rw [pay6_apply, pay7_apply, xori_one_eq_not]
  rfl

end Cert.KernelIdeal.HandV

end
-- ==== Proof.KI.Rows.lean ====
/-
  The kernel's four input blocks read at rows of the two argument arrays.

  At grid point `t` (row block `t / 16`, column block `t % 16`) the first window's block is rows
  `(t / 16)·1024 …` of the feature array, the second window's block rows `(t % 16)·512 …` of the SAME array, and
  the two label windows are the same rows of the label vector, which the two reshapes before the region laid out
  as a column and as a row.
-/
import proofs.«146683_j3109556322825_1_alg».proof.Proof.KI.Data
import proofs.«146683_j3109556322825_1_alg».proof.Proof.KI.Pay

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The rows of the feature argument and the label words, on core `c`. -/
def feat (c : Dev nD) : Fin 8192 → Fin 256 → EReal := fun r k => (m ((c.tc : Thread nD τ).loc main_arg0) : Vec Ideal S8192x256 .f32) (ix2 r k)
def labs (c : Dev nD) : Fin 8192 → BitVec 32 := fun r => (m ((c.tc : Thread nD τ).loc main_arg1) : Vec Ideal S8192 .i32) (ix1 r)

/-- The grid point's coordinates: row block `t / 16`, column block `t % 16`. -/
theorem coords_row : ∀ t : Fin cfg0.N, ((grid0.coords t) 0).val = t.val / 16 :=
  (by decide +kernel : ∀ t : Fin grid0.N, ((grid0.coords t) 0).val = t.val / 16)
theorem coords_col : ∀ t : Fin cfg0.N, ((grid0.coords t) 1).val = t.val % 16 :=
  (by decide +kernel : ∀ t : Fin grid0.N, ((grid0.coords t) 1).val = t.val % 16)

/-! ## The windows' index maps over the grid, and the arrays the host lines before the region leave -/

/-- The windows' block indices at point `t`. On the feature array: window 0 at row block `t / 16`, window 1 at block
    `t % 16` of the same rows axis, both over all 256 features. On the labels: window 2 at block `t / 16` of the
    column's rows, window 3 at block `t % 16` of the row's columns. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

/-- The feature array is untouched by the two reshapes before the region. -/
theorem V_arg0 (c : Dev nD) : (V m c main_arg0 : S8192x256.Idx → EReal) = m ((c.tc : Thread nD τ).loc main_arg0) := by
  show StableHlo.after hostOps0 (fun b => m (c, b)) (Proc.devRef .tc main_arg0) = _
  after_results

/-! ## The four blocks at a row: a block's coordinate is its index times its size plus the coordinate inside -/

theorem iblk0_apply (c : Dev nD) (t : Fin cfg0.N) (p : Fin 1024) (k : Fin 256) :
    (iblk m c 0 t : Vec Ideal S1024x256 .f32) (ix2 p k) = feat m c (rowOf (grid0.coords t) p) k := by
  unfold iblk feat
  rw [View.read_apply]
  show (V m c main_arg0 : S8192x256.Idx → EReal) (((cfg0.win 0).blk t).view.emb (ix2 p k)) = _
  rw [V_arg0]
  refine congrArg _ (funext fun a => Fin.ext ?_)
  match a with
  | ⟨0, _⟩ =>
    show win0_0.index t (0 : Fin 2) * 1024 + 1 * p.val = (grid0.coords t 0).val * 1024 + p.val
    rw [(idx0 t).1, coords_row t]; omega
  | ⟨1, _⟩ =>
    show win0_0.index t (1 : Fin 2) * 256 + 1 * k.val = k.val
    rw [(idx0 t).2]; omega

theorem iblk1_apply (c : Dev nD) (t : Fin cfg0.N) (q : Fin 512) (k : Fin 256) :
    (iblk m c 1 t : Vec Ideal S512x256 .f32) (ix2 q k) = feat m c (colOf (grid0.coords t) q) k := by
  unfold iblk feat
  rw [View.read_apply]
  show (V m c main_arg0 : S8192x256.Idx → EReal) (((cfg0.win 1).blk t).view.emb (ix2 q k)) = _
  rw [V_arg0]
  refine congrArg _ (funext fun a => Fin.ext ?_)
  match a with
  | ⟨0, _⟩ =>
    show win0_1.index t (0 : Fin 2) * 512 + 1 * q.val = (grid0.coords t 1).val * 512 + q.val
    rw [(idx1 t).1, coords_col t]; omega
  | ⟨1, _⟩ =>
    show win0_1.index t (1 : Fin 2) * 256 + 1 * k.val = k.val
    rw [(idx1 t).2]; omega

/-- The label vector laid out as a column, and as a row. -/
theorem V_v0 (c : Dev nD) : (V m c main_v0 : S8192x1.Idx → BitVec 32)
    = shapeCast S8192x1 (m ((c.tc : Thread nD τ).loc main_arg1) : Vec Ideal S8192 .i32) shapeCasts_S8192_S8192x1 := by
  show StableHlo.after hostOps0 (fun b => m (c, b)) (Proc.devRef .tc main_v0) = _
  after_results
  rfl
theorem V_v1 (c : Dev nD) : (V m c main_v1 : S1x8192.Idx → BitVec 32)
    = shapeCast S1x8192 (m ((c.tc : Thread nD τ).loc main_arg1) : Vec Ideal S8192 .i32) shapeCasts_S8192_S1x8192 := by
  show StableHlo.after hostOps0 (fun b => m (c, b)) (Proc.devRef .tc main_v1) = _
  after_results
  rfl

theorem iblk2_apply (c : Dev nD) (t : Fin cfg0.N) (p : Fin 1024) :
    (iblk m c 2 t : Vec Ideal S1024x1 .i32) (ix2 p 0) = labs m c (rowOf (grid0.coords t) p) := by
  unfold iblk labs
  rw [View.read_apply]
  show (V m c main_v0 : S8192x1.Idx → BitVec 32) (((cfg0.win 2).blk t).view.emb (ix2 p 0)) = _
  rw [V_v0]
  have e : ((cfg0.win 2).blk t).view.emb (ix2 p (0 : Fin 1)) = ix2 (rowOf (grid0.coords t) p) (0 : Fin 1) :=
    funext fun a => Fin.ext (by
      match a with
      | ⟨0, _⟩ =>
        show win0_2.index t (0 : Fin 2) * 1024 + 1 * p.val = (grid0.coords t 0).val * 1024 + p.val
        rw [(idx2 t).1, coords_row t]; omega
      | ⟨1, _⟩ =>
        show win0_2.index t (1 : Fin 2) * 1 + 1 * 0 = 0
        rw [(idx2 t).2])
  rw [e, shapeCast_a_a1_apply]

theorem iblk3_apply (c : Dev nD) (t : Fin cfg0.N) (q : Fin 512) :
    (iblk m c 3 t : Vec Ideal S1x512 .i32) (ix2 0 q) = labs m c (colOf (grid0.coords t) q) := by
  unfold iblk labs
  rw [View.read_apply]
  show (V m c main_v1 : S1x8192.Idx → BitVec 32) (((cfg0.win 3).blk t).view.emb (ix2 0 q)) = _
  rw [V_v1]
  have e : ((cfg0.win 3).blk t).view.emb (ix2 (0 : Fin 1) q) = ix2 (0 : Fin 1) (colOf (grid0.coords t) q) :=
    funext fun a => Fin.ext (by
      match a with
      | ⟨0, _⟩ =>
        show win0_3.index t (0 : Fin 2) * 1 + 1 * 0 = 0
        rw [(idx3 t).1]
      | ⟨1, _⟩ =>
        show win0_3.index t (1 : Fin 2) * 512 + 1 * q.val = (grid0.coords t 1).val * 512 + q.val
        rw [(idx3 t).2, coords_col t]; omega)
  rw [e, shapeCast_a_1a_apply]

end Cert.KernelIdeal.HandV

end
-- ==== Proof.KI.Fold.lean ====
/-
  The two scratch vectors after each grid point are the running folds of the specification.

  After the body at point `t` (row block `t / 16`, column block `j = t % 16`), row `p` of the running-maximum
  scratch is the fold of `max` over the first `j + 1` column blocks of the positives' distances from global row
  `(t / 16)·1024 + p`, and likewise the running minimum over the negatives: by induction on the point, each step
  taking in one more column block. At a row block's last column block the output block is therefore the row
  losses.
-/
import proofs.«146683_j3109556322825_1_alg».proof.Proof.KI.Rows

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-! ## One more column block -/

private theorem accMax_succ (x : Fin 8192 → Fin 256 → EReal) (lab : Fin 8192 → BitVec 32) (r : Fin 8192) (n : ℕ) (h : n < 16) :
    Cert.Spec.accMax x lab r (n + 1) = max (Cert.Spec.accMax x lab r n) (Cert.Spec.blkMax x lab r ⟨n, h⟩) := by
  rw [Cert.Spec.accMax, dif_pos h]

private theorem accMin_succ (x : Fin 8192 → Fin 256 → EReal) (lab : Fin 8192 → BitVec 32) (r : Fin 8192) (n : ℕ) (h : n < 16) :
    Cert.Spec.accMin x lab r (n + 1) = min (Cert.Spec.accMin x lab r n) (Cert.Spec.blkMin x lab r ⟨n, h⟩) := by
  rw [Cert.Spec.accMin, dif_pos h]

/-- One step of the two folds at row `p`, on blocks that read the arrays `x`, `lab` at the point's global rows and
    columns: what the scratch held there, joined with the specification's fold over column block `j`. -/
private theorem step_eq (x : Fin 8192 → Fin 256 → EReal) (lab : Fin 8192 → BitVec 32) (i : grid0.Coords) (j : Fin 16)
    (hj : (i 1).val = j.val)
    (x0 : Vec Ideal S1024x256 .f32) (x1 : Vec Ideal S512x256 .f32) (l2 : Vec Ideal S1024x1 .i32) (l3 : Vec Ideal S1x512 .i32)
    (h0 : ∀ (p : Fin 1024) (k : Fin 256), x0 (ix2 p k) = x (rowOf i p) k)
    (h1 : ∀ (q : Fin 512) (k : Fin 256), x1 (ix2 q k) = x (colOf i q) k)
    (h2 : ∀ p : Fin 1024, l2 (ix2 p 0) = lab (rowOf i p))
    (h3 : ∀ q : Fin 512, l3 (ix2 0 q) = lab (colOf i q))
    (sa sb : Vec Ideal S1024x1 .f32) (p : Fin 1024) :
    newMax (F := Ideal) i x0 x1 l2 l3 sa (ix2 p 0) = max (sa (ix2 p 0)) (Cert.Spec.blkMax x lab (rowOf i p) j)
    ∧ newMin (F := Ideal) x0 x1 l2 l3 sb (ix2 p 0) = min (sb (ix2 p 0)) (Cert.Spec.blkMin x lab (rowOf i p) j) := by
  have hcol : ∀ q : Fin 512, colOf i q = Cert.Spec.col j q := fun q =>
    Fin.ext (show (i 1).val * 512 + q.val = j.val * 512 + q.val by rw [hj])
  have hr0 : row0 x0 p = x (rowOf i p) := funext fun k => h0 p k
  have hr1 : ∀ q : Fin 512, row1 x1 q = x (Cert.Spec.col j q) := fun q => funext fun k => (h1 q k).trans (by rw [hcol])
  constructor
  · rw [newMax_apply]
    unfold Cert.Spec.blkMax Cert.Spec.posVal Cert.Spec.pos Cert.Spec.same Cert.Spec.dist
    simp only [hr0, hr1, h2, h3, hcol]
  · rw [newMin_apply]
    unfold Cert.Spec.blkMin Cert.Spec.negVal Cert.Spec.neg Cert.Spec.same Cert.Spec.dist
    simp only [hr0, hr1, h2, h3, hcol]

/-- The step at grid point `t`, on the point's four blocks. -/
private theorem stepAt_apply (c : Dev nD) (t : Fin cfg0.N) (j : Fin 16) (hj : t.val % 16 = j.val) (s : Vec Ideal S1024x1 .f32 × Vec Ideal S1024x1 .f32) (p : Fin 1024) :
    (stepAt m c t s).1 (ix2 p 0) = max (s.1 (ix2 p 0)) (Cert.Spec.blkMax (feat m c) (labs m c) (rowOf (grid0.coords t) p) j)
    ∧ (stepAt m c t s).2 (ix2 p 0) = min (s.2 (ix2 p 0)) (Cert.Spec.blkMin (feat m c) (labs m c) (rowOf (grid0.coords t) p) j) :=
  step_eq (feat m c) (labs m c) (grid0.coords t) j ((coords_col t).trans hj) (iblk m c 0 t) (iblk m c 1 t) (iblk m c 2 t) (iblk m c 3 t)
    (iblk0_apply m c t) (iblk1_apply m c t) (iblk2_apply m c t) (iblk3_apply m c t) s.1 s.2 p

/-- The scratch vectors after point `t`, at row `p`: the running folds over the first `t % 16 + 1` column blocks. -/
theorem scAt_apply (c : Dev nD) (t : Fin cfg0.N) (p : Fin 1024) :
    (scAt m c t.val t.isLt).1 (ix2 p 0) = Cert.Spec.accMax (feat m c) (labs m c) (rowOf (grid0.coords t) p) (t.val % 16 + 1)
    ∧ (scAt m c t.val t.isLt).2 (ix2 p 0) = Cert.Spec.accMin (feat m c) (labs m c) (rowOf (grid0.coords t) p) (t.val % 16 + 1) := by
  suffices H : ∀ (n : ℕ) (t : Fin cfg0.N), t.val = n →
      ((scAt m c t.val t.isLt).1 (ix2 p 0) = Cert.Spec.accMax (feat m c) (labs m c) (rowOf (grid0.coords t) p) (t.val % 16 + 1)
      ∧ (scAt m c t.val t.isLt).2 (ix2 p 0) = Cert.Spec.accMin (feat m c) (labs m c) (rowOf (grid0.coords t) p) (t.val % 16 + 1)) from
    H t.val t rfl
  intro n
  induction n using Nat.strong_induction_on with
  | _ n IH =>
    intro t hn
    subst hn
    by_cases h0 : t.val % 16 = 0
    · -- the row block's first column block: one step from the reset values
      obtain ⟨e1, e2⟩ := stepAt_apply m c t ⟨0, by decide⟩ h0 resetSc p
      rw [scAt_first m c t h0, h0, accMax_succ _ _ _ 0 (by decide), accMin_succ _ _ _ 0 (by decide)]
      refine ⟨e1.trans ?_, e2.trans ?_⟩
      · rw [show (resetSc (F := Ideal)).1 (ix2 p 0) = Cert.Spec.negInf from (reset_apply p).1]; rfl
      · rw [show (resetSc (F := Ideal)).2 (ix2 p 0) = Cert.Spec.posInf from (reset_apply p).2]; rfl
    · -- elsewhere: one step from what the point before left, in the same row block
      have hN : t.val < 128 := lt_of_lt_of_eq t.isLt (show cfg0.N = 128 from N_0)
      have hlt : t.val - 1 < cfg0.N := Nat.lt_of_le_of_lt (Nat.sub_le _ _) t.isLt
      obtain ⟨ih1, ih2⟩ := IH (t.val - 1) (by omega) ⟨t.val - 1, hlt⟩ rfl
      dsimp only at ih1 ih2
      have hrow : rowOf (grid0.coords ⟨t.val - 1, hlt⟩) p = rowOf (grid0.coords t) p :=
        Fin.ext (show ((grid0.coords ⟨t.val - 1, hlt⟩) 0).val * 1024 + p.val = ((grid0.coords t) 0).val * 1024 + p.val by
          rw [coords_row, coords_row]
          show (t.val - 1) / 16 * 1024 + p.val = t.val / 16 * 1024 + p.val
          have : (t.val - 1) / 16 = t.val / 16 := by omega
          rw [this])
      have hk : (t.val - 1) % 16 + 1 = t.val % 16 := by omega
      rw [hrow, hk] at ih1 ih2
      have hj : t.val % 16 < 16 := Nat.mod_lt _ (by decide)
      obtain ⟨e1, e2⟩ := stepAt_apply m c t ⟨t.val % 16, hj⟩ rfl (scAt m c (t.val - 1) hlt) p
      rw [scAt_next m c t h0, accMax_succ _ _ _ _ hj, accMin_succ _ _ _ _ hj]
      refine ⟨e1.trans ?_, e2.trans ?_⟩
      · rw [ih1]
      · rw [ih2]

/-- At a row block's last column block the stored output block holds the row losses. -/
theorem outAt_apply (c : Dev nD) (t : Fin cfg0.N) (h : t.val % 16 = 15) (p : Fin 1024) :
    outAt m c t (ix2 p 0) = Cert.Spec.lossK (feat m c) (labs m c) (rowOf (grid0.coords t) p) := by
  obtain ⟨e1, e2⟩ := scAt_apply m c t p
  unfold outAt
  rw [outOf_apply, e1, e2, h]
  exact Cert.Spec.lossAcc_eq_lossK (feat m c) (labs m c) (rowOf (grid0.coords t) p)

end Cert.KernelIdeal.HandV

end
-- ==== Proof.KI.Launch.lean ====
/-
  The run of `KernelIdeal`'s @main: two reshapes of the label vector, the kernel region, five host lines (the output
  column reshaped to a vector, summed from zero, divided by 8192).

  The region reads the feature array through TWO windows (row blocks and column blocks of one array), so the
  array's share is dealt in halves to the two windows at entry and joined again at exit; the host lines after the
  region run over the output array and the buffers they write, which do not include the feature array. The
  run ends with the result buffer at the host lines' value of the output array the region leaves, and both
  arguments unchanged.
-/
import proofs.«146683_j3109556322825_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents the host lines after the region start from: as the region was entered, but for the
    output array, which holds what the region's write-backs left. -/
def exitVal (c : Dev nD) : Valuation τ sig (Elt F) :=
  Function.update (V0 m c) (Proc.devRef .tc main_v2) ((dats m 0 c).arrAt 4 cfg0.N)

/-- The result buffer after the host lines. -/
def resultOf (c : Dev nD) : Buf (Elt F) ((c.tc : Thread nD τ).loc main_v5) :=
  StableHlo.after hostOps1 (exitVal m c) (Proc.devRef .tc main_v5)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the five host lines, at the contents after the two reshapes. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The feature array's share, dealt to its two windows -/

/-- The buffers behind the windows' arrays, one by one (the feature array once). -/
theorem arrBufs0_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) := by
  unfold Pipeline.arrBufs
  exact bigSep_eq_bigSepL_of_eq [main_arg0, main_v0, main_v1, main_v2] (by decide) (by decide) _

/-- A buffer's full share is its two halves, -/
theorem hhalf (c : Dev nD) (f : Buf (Elt F) ((c : Thread nD τ).loc main_arg0)) :
    ((((c : Thread nD τ).loc main_arg0) ↦{fullShare} f) : sProp 𝕄)
      ⊢ iprop((((c : Thread nD τ).loc main_arg0) ↦{fullShare.left} f) ∗ (((c : Thread nD τ).loc main_arg0) ↦{fullShare.right} f)) :=
  (pointsTo_share (PosShare.mem_left_op_right fullShare)).1
/-- and the two halves join to the full share. -/
theorem hjoin (c : Dev nD) (f : Buf (Elt F) ((c : Thread nD τ).loc main_arg0)) :
    (iprop((((c : Thread nD τ).loc main_arg0) ↦{fullShare.left} f) ∗ (((c : Thread nD τ).loc main_arg0) ↦{fullShare.right} f)) : sProp 𝕄)
      ⊢ (((c : Thread nD τ).loc main_arg0) ↦{fullShare} f) :=
  (pointsTo_share (PosShare.mem_left_op_right fullShare)).2

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The windows' arrays one by one, each whole at its share. -/
theorem arrays0_eq (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, share0, share1, share2, share3, share4, (Memref.isWhole_whole main_arg0).set_eq_univ, (Memref.isWhole_whole main_v0).set_eq_univ,
    (Memref.isWhole_whole main_v1).set_eq_univ, (Memref.isWhole_whole main_v2).set_eq_univ]

/-- At entry the buffers behind the arrays make the windows' arrays: the feature array's share dealt in halves. -/
theorem hsplit (c : Dev nD) : (Pipeline.arrBufs spec0 c (V m c) : sProp 𝕄) ⊢ (dats m 0 c).arrays ((dats m 0 c).arrAt · 0) := by
  rw [arrBufs0_eq, arrays0_eq]
  iintro ⟨H0, Hv0, Hv1, Hv2⟩
  ihave H := (hhalf c (V m c main_arg0)) $$ H0
  icases H with ⟨Hl, Hr⟩
  isplitl [Hl]; · iexact Hl
  isplitl [Hr]; · iexact Hr
  isplitl [Hv0]; · iexact Hv0
  isplitl [Hv1]; · iexact Hv1
  iexact Hv2

/-- What the host lines after the region hold besides the arrays: the label argument as it was, and the result
    buffer at the lines' value. -/
def tailPost (c : Dev nD) : sProp 𝕄 :=
  iprop((((c.tc : Thread nD τ).loc main_arg1) ↦{fullShare} V m c main_arg1)
    ∗ (((c.tc : Thread nD τ).loc main_v5) ↦{fullShare} resultOf m c))

/-! ## The host lines after the region -/

/-- The buffers the five host lines touch: the output array they read and the five buffers they write. -/
abbrev tailRefs : Finset (DevRef τ sig) :=
  ([Proc.devRef .tc main_v2, Proc.devRef .tc main_v3, Proc.devRef .tc main_cst, Proc.devRef .tc main_v4,
    Proc.devRef .tc main_cst_0, Proc.devRef .tc main_v5] : List (DevRef τ sig)).toFinset

/-- Those buffers held at a valuation, one by one. -/
theorem heldTail_eq (c : Dev nD) (W : Valuation τ sig (Elt F)) :
    (StableHlo.held (c.tc : Thread nD τ) tailRefs W : sProp 𝕄)
      = iprop((((c : Thread nD τ).loc main_v2) ↦{fullShare} W (Proc.devRef .tc main_v2)) ∗ (((c : Thread nD τ).loc main_v3) ↦{fullShare} W (Proc.devRef .tc main_v3))
          ∗ (((c : Thread nD τ).loc main_cst) ↦{fullShare} W (Proc.devRef .tc main_cst)) ∗ (((c : Thread nD τ).loc main_v4) ↦{fullShare} W (Proc.devRef .tc main_v4))
          ∗ (((c : Thread nD τ).loc main_cst_0) ↦{fullShare} W (Proc.devRef .tc main_cst_0)) ∗ (((c : Thread nD τ).loc main_v5) ↦{fullShare} W (Proc.devRef .tc main_v5))) := by
  unfold StableHlo.held
  exact bigSep_eq_bigSepL _ (by decide) _

theorem exitVal_out (c : Dev nD) : exitVal m c (Proc.devRef .tc main_v2) = (dats m 0 c).arrAt 4 cfg0.N := by
  unfold exitVal; exact Function.update_self _ _ _
theorem exitVal_ne (c : Dev nD) (b : DevRef τ sig) (h : b ≠ Proc.devRef .tc main_v2) : exitVal m c b = V0 m c b := by
  unfold exitVal; exact Function.update_of_ne h _ _

theorem hostOps1_tail : ∀ ops ∈ ([hostOps1] : List (List (HloOp τ sig (Elt F)))), ∀ op ∈ ops, op.bufs ⊆ tailRefs := by
  intro ops hops op hop
  simp only [List.mem_cons, List.mem_nil_iff, or_false] at hops
  subst hops
  simp only [hostOps1, List.mem_cons, List.mem_nil_iff, or_false] at hop
  rcases hop with rfl | rfl | rfl | rfl | rfl <;>
    first | (rw [StableHlo.reshape_bufs]; decide) | (rw [StableHlo.nullary_bufs]; decide) | (rw [StableHlo.binary_bufs]; decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host line after the region writes the output array. -/
theorem after_tail_out (c : Dev nD) :
    StableHlo.after hostOps1 (exitVal m c) (Proc.devRef .tc main_v2) = (dats m 0 c).arrAt 4 cfg0.N := by
  rw [StableHlo.after_of_forall_not_mem _ _ fun op hop => ?_, exitVal_out]
  simp only [hostOps1, List.mem_cons, List.mem_nil_iff, or_false] at hop
  rcases hop with rfl | rfl | rfl | rfl | rfl <;>
    (simp only [StableHlo.reshape_writes, StableHlo.nullary_writes, StableHlo.binary_writes]; decide)

set_option backward.isDefEq.respectTransparency.types false in
/-- From the region's exit — the arrays at what the write-backs left, the other buffers as the region was entered —
    the five host lines run, and hand back the arrays as they were, the label argument, and the result buffer at the
    lines' value. -/
theorem htail (c : Dev nD) (Q' : PUnit → sProp 𝕄) :
    iprop((iprop((dats m 0 c).arrays ((dats m 0 c).arrAt · cfg0.N) ∗ tailPost m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [arrays0_eq, Pipeline.unscopedRestP_none, unscopedRest0_eq]
  iintro ⟨Hk, Hb, ⟨Hl, Hr, Hv0, Hv1, Hv2⟩, ⟨Harg1, H3, Hc, H4, Hc0, H5⟩⟩
  rw [← List.append_nil ([StableHlo.seq hostOps1] : List _)]
  iapply (Pipeline.wp_seqs_then (fun q => (cfgs q).toPCfg (Val := Elt F)) defs₀ Variants.none c tailRefs [] [hostOps1] hostOps1_tail hostOps1_fresh' (exitVal m c)) $$ [Hb Hv2 H3 Hc H4 Hc0 H5]
  · isplitl [Hb]; · iexact Hb
    rw [heldTail_eq, exitVal_out, exitVal_ne m c _ (by decide), exitVal_ne m c _ (by decide), exitVal_ne m c _ (by decide),
      exitVal_ne m c _ (by decide), exitVal_ne m c _ (by decide)]
    isplitl [Hv2]; · iexact Hv2
    isplitl [H3]; · iexact H3
    isplitl [Hc]; · iexact Hc
    isplitl [H4]; · iexact H4
    isplitl [Hc0]; · iexact Hc0
    iexact H5
  iintro Hb
  rw [Pipeline.chain_nil, wp_pure, heldTail_eq]
  imodintro
  iapply Hk
  icases Hb with ⟨-, Hv2, -, -, -, -, H5⟩
  simp only [List.flatten_cons, List.flatten_nil, List.append_nil]
  rw [after_tail_out]
  isplitl [Hl Hr Hv0 Hv1 Hv2]
  · isplitl [Hl]; · iexact Hl
    isplitl [Hr]; · iexact Hr
    isplitl [Hv0]; · iexact Hv0
    isplitl [Hv1]; · iexact Hv1
    iexact Hv2
  unfold tailPost resultOf
  isplitl [Harg1]; · iexact Harg1
  iexact H5

/-! ## The arguments as the region finds them -/

/-- The two reshapes before the region write neither argument. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results

set_option backward.isDefEq.respectTransparency.types false in
/-- From any memory with zero counters every weakly fair execution of @main terminates, the result buffer at the host
    lines' value of the output array the region leaves, both arguments unchanged. -/
theorem run_main : θ_run defs (onTc (τ := τ) (main (F := F))) ⟨m, fun _ => 0, ρ⟩ (fun r => ∀ c : Dev nD,
      r.2.mem ((c.tc : Thread nD τ).loc main_v5) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V m c b) (hmain := hmain m)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => tailPost m c)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg1) = V m c main_arg1 ∧ s.mem ((c.tc : Thread nD τ).loc main_v5) = resultOf m c)
    (hY := fun c s' => by
      unfold tailPost
      iintro ⟨-, ⟨H1, H5⟩, HSI⟩
      icombine HSI H1 gives %h1
      icombine HSI H5 gives %h5
      imodintro
      isplitr
      · ipureintro; exact ⟨Buf.eq_of_forall_mem_univ h1, Buf.eq_of_forall_mem_univ h5⟩
      · iexact HSI)
    (hQ := fun s h c => ⟨(h c).2.2.2,
      ((h c).1 0).trans (((dats m 0 c).arrAt_in 0 rfl _).trans ((A_eq m c 0).trans (V_main_arg0 m c))),
      (h c).2.2.1.trans (V_main_arg1 m c)⟩)

/-- THE FRAME: every weakly fair execution terminates, nothing faults, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Final.lean ====
/-
  The output array the region leaves, and the result the host lines make of it.

  Row block `i` of the output column is written back once, at the block's last column block, with the row losses
  of rows `i·1024 …`; the eight write-backs tile the array, so it ends as the column of all 8192 row losses. The
  host lines reshape the column to a vector, sum it from zero and divide by 8192: the mean of the row losses.
-/
import proofs.«146683_j3109556322825_1_alg».proof.Proof.KI.Fold
import proofs.«146683_j3109556322825_1_alg».proof.Proof.KI.Launch
import Idealize.ShloMosaic.Lib.IdealHost
import Idealize.ShloMosaic.Lib.ValueIdxRank1

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-! ## The write-backs of the output window -/

/-- The output window's block index at point `t`: row block `t / 16` of the column. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- An index of the output column is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- If the block stored at each row block's last column block reads `L` at its global rows, the output array ends as
    the column of `L`: each write-back is that block of the column, and the eight of them tile its 8192 rows. -/
theorem out_array_of (c : Dev nD) (L : Fin 8192 → EReal)
    (hL : ∀ t : Fin cfg0.N, t.val % 16 = 15 → ∀ p : Fin 1024, (outAt m c t : Vec Ideal S1024x1 .f32) (ix2 p 0) = L (rowOf (grid0.coords t) p)) :
    ((dats m 0 c).arrAt 4 cfg0.N : Vec Ideal S8192x1 .f32) = fun idx => L (idx 0) := by
  refine (dats m 0 c).arrAt_eq_of_cover 4 (fun idx => L (idx 0)) (fun t hf => ?_) (fun i => ?_)
  · -- what a last column block writes back is the block of the column of `L` at its rows
    have h15 : t.val % 16 = 15 := (flush0_4 t).mp hf
    show (cfg0.win 4).cut (grid0.coords t) ((dats m 0 c).after 4 t) = _
    rw [after4]
    refine funext fun (j : S1024x1.Idx) => ?_
    obtain ⟨p, rfl⟩ : ∃ p : Fin 1024, j = ix2 p (0 : Fin 1) :=
      ⟨j 0, funext fun a => match a with
        | ⟨0, _⟩ => rfl
        | ⟨1, _⟩ => Fin.ext (by have h1 : (j 1).val < 1 := (j 1).isLt; show (j 1).val = 0; omega)⟩
    rw [View.read_apply]
    show (outAt m c t : Vec Ideal S1024x1 .f32) (ix2 p 0) = L ((((cfg0.win 4).blk t).view.emb (ix2 p (0 : Fin 1))) 0)
    rw [hL t h15 p]
    refine congrArg L (Fin.ext ?_)
    show (grid0.coords t 0).val * 1024 + p.val = win0_4.index t (0 : Fin 2) * 1024 + 1 * p.val
    rw [(idx4 t).1, coords_row t]; omega
  · -- the eight write-backs tile the column: row `r` is in row block `r / 1024`, written back at that block's last point
    have hi0 : (i 0).val < 8192 := (i 0).isLt
    have hi1 : (i 1).val < 1 := (i 1).isLt
    have hN : (i 0).val / 1024 * 16 + 15 < cfg0.N := by rw [show cfg0.N = 128 from N_0]; omega
    refine ⟨⟨(i 0).val / 1024 * 16 + 15, hN⟩, (flush0_4 _).mpr (by show ((i 0).val / 1024 * 16 + 15) % 16 = 15; omega), ?_⟩
    rw [mem_blk4]
    obtain ⟨e0, e1⟩ := idx4 ⟨(i 0).val / 1024 * 16 + 15, hN⟩
    intro a
    match a with
    | ⟨0, _⟩ =>
      show win0_4.index _ (0 : Fin 2) * 1024 ≤ (i 0).val ∧ (i 0).val < win0_4.index _ (0 : Fin 2) * 1024 + 1024
      rw [e0]; show ((i 0).val / 1024 * 16 + 15) / 16 * 1024 ≤ (i 0).val ∧ (i 0).val < ((i 0).val / 1024 * 16 + 15) / 16 * 1024 + 1024
      omega
    | ⟨1, _⟩ =>
      show win0_4.index _ (1 : Fin 2) * 1 ≤ (i 1).val ∧ (i 1).val < win0_4.index _ (1 : Fin 2) * 1 + 1
      rw [e1]; omega

/-! ## The host lines after the region -/

/-- A column `[a, 1]` cast to the vector `[a]` reads, at `i`, the column at row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- If the output array is the column of `L`, the result is the mean of `L`: the column reshaped to a vector, summed
    from zero over all its indices, divided by the count. -/
theorem result_eq_of (c : Dev nD) (L : Fin 8192 → EReal)
    (hA : ((dats m 0 c).arrAt 4 cfg0.N : Vec Ideal S8192x1 .f32) = fun idx => L (idx 0)) :
    (resultOf m c : Vec Ideal S_ .f32) = fun _ => Cert.Spec.mean L := by
  have hx : (exitVal m c (Proc.devRef .tc main_v2) : Vec Ideal S8192x1 .f32) = fun idx => L (idx 0) := by
    unfold exitVal; rw [Function.update_self]; exact hA
  unfold resultOf
  after_results
  show Host.divf (Host.reduceAdd (shapeCast S8192 (exitVal m c (Proc.devRef .tc main_v2) : Vec Ideal S8192x1 .f32) shapeCasts_S8192x1_S8192)
      (constant (F := Ideal) S_ .f32 0#32) reducesTo_S8192_S_d0 h_S_) (constant (F := Ideal) S_ .f32 1174405120#32) = _
  rw [hx]
  funext i
  rw [hostDivf_apply, hostReduceAdd_apply, Ideal.hostReduceAdd_total reducesTo_S8192_S_d0 (fun b => b.elim0)]
  have hs : ∑ j : S8192.Idx, shapeCast S8192 (fun idx : S8192x1.Idx => L (idx 0)) shapeCasts_S8192x1_S8192 j = ∑ r : Fin 8192, L r := by
    rw [← Equiv.sum_comp (idxEquiv1 (n := 8192)).symm]
    exact Finset.sum_congr rfl fun r _ => shapeCast_a1_a_apply _ _ r
  exact congrArg (fun z : EReal => Ideal.div (Cert.Spec.zero + z) Cert.Spec.count) hs

/-- The output array after the region: the column of the row losses. -/
theorem out_array (c : Dev nD) :
    ((dats m 0 c).arrAt 4 cfg0.N : Vec Ideal S8192x1 .f32)
      = fun idx => Cert.Spec.lossK (feat m c) (labs m c) (idx 0) :=
  out_array_of m c _ fun t h p => outAt_apply m c t h p

/-- The result buffer after the host lines: the mean of the row losses. -/
theorem result_eq (c : Dev nD) :
    (resultOf m c : Vec Ideal S_ .f32) = fun _ => Cert.Spec.mean (fun r => Cert.Spec.lossK (feat m c) (labs m c) r) :=
  result_eq_of m c _ (out_array m c)

end Cert.KernelIdeal.HandV

end
-- ==== Proof.RefValue.lean ====
/-
  The reference program read as the specification, at the extended reals.

  Every stage of the reference is read at ONE symbolic index. At a pair of rows `(r, c)` the broadcast row sums of
  squares are `|x r|²` and `|x c|²` and the product of the array with its transpose is the inner product
  `⟨x r, x c⟩`, so the clamped square and the guarded square root are `Spec.sqOf` and `Spec.dist`. The label
  comparison is `Spec.same`; the row counter plus zero compared with the column counter, negated, is the bit
  "`r ≠ c`" because both counters are below 2³²; so the two masks are `Spec.pos` and `Spec.neg` and the masked
  distances `Spec.posVal` and `Spec.negVal`. Each of the four row reductions is a fold over the 8192 columns of a
  commutative and associative operation: the disjunction of a mask from the zero bit is the bit "some column has
  the mask set" (`Spec.anyPos`, `Spec.anyNeg`), the maximum from −∞ and the minimum from +∞ are `Spec.rowMax` and
  `Spec.rowMin`. The hinge of the selected values is `Spec.lossR`, and the last reduction is zero plus the sum of the
  8192 row losses, divided by the count: `Spec.mean`.
-/
import proofs.«146683_j3109556322825_1_alg».proof.Defs
import proofs.«146683_j3109556322825_1_alg».proof.Proof.Gen.Pre_finite_inputs
import proofs.«146683_j3109556322825_1_alg».proof.Proof.RefRunP
import proofs.«146683_j3109556322825_1_alg».proof.Proof.RefReadP
import proofs.«146683_j3109556322825_1_alg».proof.Proof.Spec
import Idealize.ShloMosaic.Lib.ValueIdx
import Idealize.ShloMosaic.Lib.ValueIdxRank1
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- Row `r` of the feature array, as a vector of 256 extended reals. -/
def xr (x0 : (⟨S8192x256, .f32⟩ : BufTy).Contents (Elt Ideal)) : Fin 8192 → Fin 256 → EReal := fun r k => x0 (ix2 r k)

/-- Row `r`'s label word. -/
def lr (x1 : (⟨S8192, .i32⟩ : BufTy).Contents (Elt Ideal)) : Fin 8192 → BitVec 32 := fun r => x1 (ix1 r)

variable (x0 : (⟨S8192x256, .f32⟩ : BufTy).Contents (Elt Ideal)) (x1 : (⟨S8192, .i32⟩ : BufTy).Contents (Elt Ideal))

/-! ## The squared distance of two rows -/

/-- The row sum of squares at `r` is `∑ k, x r k * x r k`: the sum starts from the zero word, which is the real zero. -/
theorem sqn_at (r : Fin 8192) :
    val_main_v1 (F := Ideal) x0 (ix1 r) = ∑ k : Fin 256, xr x0 r k * xr x0 r k := by
  rw [val_main_v1_apply, val_main_cst_apply, Ideal.ofBits_def, Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [val_main_v0_apply, e]; rfl

/-- The product of the array with its transpose at `(r, c)` is the inner product of rows `r` and `c`. -/
theorem gram_at (r c : Fin 8192) :
    val_main_v8 (F := Ideal) x0 (ix2 r c) = ∑ k : Fin 256, xr x0 r k * xr x0 c k := by
  rw [val_main_v8_apply]
  refine Finset.sum_congr rfl fun k _ => ?_
  have el : lidx_main_v8 (ix2 r c) k = ix2 r k :=
    funext fun a => Fin.ext (by match a with | ⟨0, _⟩ => rfl | ⟨1, _⟩ => rfl)
  have er : idx_main_v7 (ridx_main_v8 (ix2 r c) k) = ix2 c k :=
    funext fun a => Fin.ext (by match a with | ⟨0, _⟩ => rfl | ⟨1, _⟩ => rfl)
  rw [val_main_v7_apply, el, er]; rfl

/-- The clamped squared distance at `(r, c)`. -/
theorem sq_at (r c : Fin 8192) :
    val_main_v13 (F := Ideal) x0 (ix2 r c) = Spec.sqOf (xr x0 r) (xr x0 c) := by
  have e1 : idx_main_v2 (idx_main_v4 (ix2 r c)) = ix1 r :=
    funext fun a => Fin.ext (by match a with | ⟨0, _⟩ => rfl)
  have e2 : idx_main_v3 (idx_main_v5 (ix2 r c)) = ix1 c :=
    funext fun a => Fin.ext (by match a with | ⟨0, _⟩ => rfl)
  rw [val_main_v13_apply, val_main_v11_apply, val_main_v6_apply, val_main_v4_apply, val_main_v2_apply, val_main_v5_apply,
    val_main_v3_apply, val_main_v10_apply, val_main_v9_apply, val_main_cst_0_apply, val_main_v12_apply, val_main_cst_1_apply,
    e1, e2, sqn_at, sqn_at, gram_at]
  rfl

/-- The guarded distance at `(r, c)`. -/
theorem dist_at (r c : Fin 8192) :
    val_main_v20 (F := Ideal) x0 (ix2 r c) = Spec.dist (xr x0) r c := by
  rw [val_main_v20_apply, val_main_v15_apply, val_main_v14_apply, val_main_cst_2_apply, val_main_v19_apply, val_main_v18_apply,
    val_main_v17_apply, val_main_v16_apply, val_main_cst_3_apply, val_main_call0_v1_apply, val_main_call0_v0_apply,
    val_main_cst_4_apply, val_main_call1_v1_apply, val_main_call1_v0_apply, val_main_cst_5_apply, sq_at]
  rfl

/-! ## The masks -/

/-- The label comparison at `(r, c)`. -/
theorem same_at (r c : Fin 8192) :
    val_main_v25 (F := Ideal) x1 (ix2 r c) = Spec.same (lr x1) r c := by
  have e1 : idx_main_v21 (idx_main_v23 (ix2 r c)) = ix1 r :=
    funext fun a => Fin.ext (by match a with | ⟨0, _⟩ => rfl)
  have e2 : idx_main_v22 (idx_main_v24 (ix2 r c)) = ix1 c :=
    funext fun a => Fin.ext (by match a with | ⟨0, _⟩ => rfl)
  rw [val_main_v25_apply, val_main_v23_apply, val_main_v21_apply, val_main_v24_apply, val_main_v22_apply, e1, e2]
  rfl

/-- Two row numbers below 2³² have the same 32-bit word only when they are equal. -/
theorem ofNat_eq_iff (r c : Fin 8192) : BitVec.ofNat 32 r.val = BitVec.ofNat 32 c.val ↔ r = c := by
  constructor
  · intro e
    have h := congrArg BitVec.toNat e
    rw [BitVec.toNat_ofNat, BitVec.toNat_ofNat] at h
    have hr := r.isLt; have hc := c.isLt
    exact Fin.ext (by omega)
  · intro e; rw [e]

/-- The "not the diagonal" bit at `(r, c)`: the row counter plus zero is compared with the column counter and the bit negated. -/
theorem offDiag_at (r c : Fin 8192) :
    val_main_v31 (F := Ideal) (ix2 r c) = Spec.offDiag r c := by
  rw [val_main_v31_apply, val_main_v30_apply, val_main_v29_apply, val_main_v26_apply, val_main_v27_apply, val_main_v28_apply,
    val_main_c_apply]
  show ~~~(BitVec.ofBool (BitVec.ofNat 32 r.val + 0#32 == BitVec.ofNat 32 c.val)) = Spec.offDiag r c
  unfold Spec.offDiag
  rw [BitVec.add_zero]
  by_cases h : r = c
  · rw [if_pos h, h, beq_self_eq_true]; rfl
  · rw [if_neg h, beq_eq_false_iff_ne.2 (fun e => h ((ofNat_eq_iff r c).1 e))]; rfl

theorem pos_at (r c : Fin 8192) :
    val_main_v32 (F := Ideal) x1 (ix2 r c) = Spec.pos (lr x1) r c := by
  rw [val_main_v32_apply, same_at, offDiag_at]; rfl

theorem neg_at (r c : Fin 8192) :
    val_main_v33 (F := Ideal) x1 (ix2 r c) = Spec.neg (lr x1) r c := by
  rw [val_main_v33_apply, same_at]; rfl

/-- The distance where the pair is a positive and −∞ elsewhere, at `(r, c)`. -/
theorem posVal_at (r c : Fin 8192) :
    val_main_v35 (F := Ideal) x0 x1 (ix2 r c) = Spec.posVal (xr x0) (lr x1) r c := by
  rw [val_main_v35_apply, pos_at, dist_at, val_main_call2_v1_apply, val_main_call2_v0_apply, val_main_cst_7_apply]; rfl

/-- The distance where the pair is a negative and +∞ elsewhere, at `(r, c)`. -/
theorem negVal_at (r c : Fin 8192) :
    val_main_v39 (F := Ideal) x0 x1 (ix2 r c) = Spec.negVal (xr x0) (lr x1) r c := by
  rw [val_main_v39_apply, neg_at, dist_at, val_main_call4_v1_apply, val_main_call4_v0_apply, val_main_cst_11_apply]; rfl

/-! ## The four row reductions -/

/-- The column axis of the square array can be dropped. -/
theorem reduces_cols : S8192x8192.Reduces [1] S8192 := by decide

/-- Row index `r` with column `k` put back is `(r, k)`. -/
theorem lift_row (r : Fin 8192) (k : Fin (S8192x8192.size 1)) :
    reduces_cols.lift (ix1 r) k = ix2 r (⟨k.val, k.isLt⟩ : Fin 8192) := by
  funext a; apply Fin.ext
  match a with
  | ⟨0, _⟩ => rfl
  | ⟨1, _⟩ => rfl

instance oriComm : Std.Commutative (IntOp.ori (w := 1)) := ⟨fun x y => BitVec.or_comm x y⟩
instance oriAssoc : Std.Associative (IntOp.ori (w := 1)) := ⟨fun x y z => BitVec.or_assoc x y z⟩

/-- A disjunction of one-bit words folded from the zero word is one exactly when some word is one. -/
theorem fold_ori_eq_one_iff {ι : Type} [DecidableEq ι] (s : Finset ι) (f : ι → BitVec 1) :
    s.fold IntOp.ori 0#1 f = 1#1 ↔ ∃ c ∈ s, f c = 1#1 := by
  induction s using Finset.induction_on with
  | empty => simp
  | insert a s ha ih =>
    rw [Finset.fold_insert ha]
    have hor : ∀ p q : BitVec 1, IntOp.ori p q = 1#1 ↔ (p = 1#1 ∨ q = 1#1) := by decide
    rw [hor, ih]
    constructor
    · rintro (h | ⟨c, hc, h⟩)
      · exact ⟨a, Finset.mem_insert_self a s, h⟩
      · exact ⟨c, Finset.mem_insert_of_mem hc, h⟩
    · rintro ⟨c, hc, h⟩
      rcases Finset.mem_insert.1 hc with rfl | hc
      · exact Or.inl h
      · exact Or.inr ⟨c, hc, h⟩

/-- The same fold written as the word itself. -/
theorem fold_ori_univ {ι : Type} [Fintype ι] [DecidableEq ι] (f : ι → BitVec 1) (p : Prop) {dp : Decidable p}
    (hp : p ↔ ∃ c, f c = 1#1) :
    (Finset.univ : Finset ι).fold IntOp.ori 0#1 f = if p then 1#1 else 0#1 := by
  have hi := fold_ori_eq_one_iff (Finset.univ : Finset ι) f
  by_cases h : p
  · rw [if_pos h]
    obtain ⟨c, hc⟩ := hp.1 h
    exact hi.2 ⟨c, Finset.mem_univ c, hc⟩
  · rw [if_neg h]
    rcases BitVec.eq_zero_or_eq_one ((Finset.univ : Finset ι).fold IntOp.ori 0#1 f) with h0 | h1
    · exact h0
    · obtain ⟨c, _, hc⟩ := hi.1 h1
      exact absurd (hp.2 ⟨c, hc⟩) h

/-- "Row `r` has a positive": the disjunction of the positive mask over the row. -/
theorem anyPos_at (r : Fin 8192) :
    val_main_v34 (F := Ideal) x1 (ix1 r) = Spec.anyPos (lr x1) r := by
  unfold val_main_v34
  rw [Host.reduce_eq_fold_single IntOp.ori _ _ reducesTo_S8192x8192_S8192_d1 reduces_cols h_S_]
  have hf : (val_main_v32 (F := Ideal) x1 ∘ reduces_cols.lift (ix1 r))
      = fun k : Fin (S8192x8192.size 1) => Spec.pos (lr x1) r (⟨k.val, k.isLt⟩ : Fin 8192) :=
    funext fun k => by rw [Function.comp_apply, lift_row, pos_at]
  rw [hf, val_main_c_6_apply]
  unfold Spec.anyPos
  exact fold_ori_univ _ _ ⟨fun ⟨c, hc⟩ => ⟨⟨c.val, c.isLt⟩, hc⟩, fun ⟨k, hk⟩ => ⟨⟨k.val, k.isLt⟩, hk⟩⟩

/-- "Row `r` has a negative": the disjunction of the negative mask over the row. -/
theorem anyNeg_at (r : Fin 8192) :
    val_main_v38 (F := Ideal) x1 (ix1 r) = Spec.anyNeg (lr x1) r := by
  unfold val_main_v38
  rw [Host.reduce_eq_fold_single IntOp.ori _ _ reducesTo_S8192x8192_S8192_d1 reduces_cols h_S_]
  have hf : (val_main_v33 (F := Ideal) x1 ∘ reduces_cols.lift (ix1 r))
      = fun k : Fin (S8192x8192.size 1) => Spec.neg (lr x1) r (⟨k.val, k.isLt⟩ : Fin 8192) :=
    funext fun k => by rw [Function.comp_apply, lift_row, neg_at]
  rw [hf, val_main_c_10_apply]
  unfold Spec.anyNeg
  exact fold_ori_univ _ _ ⟨fun ⟨c, hc⟩ => ⟨⟨c.val, c.isLt⟩, hc⟩, fun ⟨k, hk⟩ => ⟨⟨k.val, k.isLt⟩, hk⟩⟩

/-- The largest distance from row `r` to a positive: the maximum folded from −∞ over the row. -/
theorem rowMax_at (r : Fin 8192) :
    val_main_v36 (F := Ideal) x0 x1 (ix1 r) = Spec.rowMax (xr x0) (lr x1) r := by
  unfold val_main_v36
  rw [Host.reduce_eq_fold_single FloatOps.maximumf _ _ reducesTo_S8192x8192_S8192_d1 reduces_cols h_S_]
  have hf : (val_main_v35 (F := Ideal) x0 x1 ∘ reduces_cols.lift (ix1 r))
      = fun k : Fin (S8192x8192.size 1) => Spec.posVal (xr x0) (lr x1) r (⟨k.val, k.isLt⟩ : Fin 8192) :=
    funext fun k => by rw [Function.comp_apply, lift_row, posVal_at]
  rw [hf, val_main_cst_8_apply]
  rfl

/-- The smallest distance from row `r` to a negative: the minimum folded from +∞ over the row. -/
theorem rowMin_at (r : Fin 8192) :
    val_main_v40 (F := Ideal) x0 x1 (ix1 r) = Spec.rowMin (xr x0) (lr x1) r := by
  unfold val_main_v40
  rw [Host.reduce_eq_fold_single FloatOps.minimumf _ _ reducesTo_S8192x8192_S8192_d1 reduces_cols h_S_]
  have hf : (val_main_v39 (F := Ideal) x0 x1 ∘ reduces_cols.lift (ix1 r))
      = fun k : Fin (S8192x8192.size 1) => Spec.negVal (xr x0) (lr x1) r (⟨k.val, k.isLt⟩ : Fin 8192) :=
    funext fun k => by rw [Function.comp_apply, lift_row, negVal_at]
  rw [hf, val_main_cst_12_apply]
  rfl

/-! ## The row loss and its mean -/

/-- The vector the mean is taken of: the hinge of the hardest positive and the hardest negative distance of row `r`. -/
theorem loss_apply (r : Fin 8192) :
    val_main_v46 (F := Ideal) x0 x1 (ix1 r) = Spec.lossR (xr x0) (lr x1) r := by
  rw [val_main_v46_apply, val_main_v45_apply, val_main_cst_15_apply, val_main_v44_apply, val_main_v43_apply, val_main_v42_apply,
    val_main_cst_14_apply, val_main_v37_apply, val_main_v41_apply, anyPos_at, anyNeg_at, rowMax_at, rowMin_at,
    val_main_call3_v1_apply, val_main_call3_v0_apply, val_main_cst_9_apply, val_main_call5_v1_apply, val_main_call5_v0_apply,
    val_main_cst_13_apply]
  rfl

/-- The result: the sum of the row losses from zero, over the count. -/
theorem result_eq :
    val_main_v48 (F := Ideal) x0 x1 = fun _ => Spec.mean (fun r => Spec.lossR (xr x0) (lr x1) r) := by
  funext i
  have hs : ∑ j : S8192.Idx, val_main_v46 (F := Ideal) x0 x1 j = ∑ r : Fin 8192, Spec.lossR (xr x0) (lr x1) r := by
    rw [← Equiv.sum_comp (idxEquiv1 (n := 8192)).symm]
    exact Finset.sum_congr rfl fun r _ => loss_apply x0 x1 r
  rw [val_main_v48_apply, val_main_v47_apply, val_main_cst_16_apply, val_main_cst_17_apply, hs]
  rfl

/-! ## The run -/

/-- Every weakly fair execution of the reference ends with the result at the mean of the row losses of the argument
    arrays' rows, and the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v48)
        = (fun _ => Cert.Spec.mean (fun q => Cert.Spec.lossR
            (xr (m' ((c.tc : Thread Cert.ReferenceIdeal.nD Cert.ReferenceIdeal.τ).loc Cert.ReferenceIdeal.main_arg0)))
            (lr (m' ((c.tc : Thread Cert.ReferenceIdeal.nD Cert.ReferenceIdeal.τ).loc Cert.ReferenceIdeal.main_arg1))) q))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((ReadP.val_main_v48_eq m' c).trans (result_eq _ _)), (h c).2⟩)
    (Cert.ReferenceIdeal.ValueP.run (F := Ideal) m' g')

/-- The reference terminates with its arguments unchanged: the run with the result dropped. -/
theorem frame : Cert.frame_ReferenceIdeal := fun m g _ =>
  (θ_run Cert.ReferenceIdeal.defs _ _).mono (fun _ h c => (h c).2) (Cert.ReferenceIdeal.ValueP.run (F := Ideal) m g)

end Cert.ReferenceIdeal.RefValue

end
-- ==== Proof.PreFinite.lean ====
/-
  The finiteness precondition, read back: it states that the conjunction, over every entry of the feature array,
  of the test |x| < +∞ is true. A conjunction over all entries that is true is true at each entry; and an extended
  real whose absolute value max x (−x) lies below +∞ is neither +∞ (then x itself is +∞) nor −∞ (then −x is +∞),
  so it is a real number.
-/
import proofs.«146683_j3109556322825_1_alg».proof.Pre_finite_inputs
import proofs.«146683_j3109556322825_1_alg».proof.Proof.Gen.Pre_finite_inputs
import Idealize.ShloMosaic.Lib.ReduceAll
import Idealize.ShloMosaic.Lib.ValueIdx
import Idealize.ShloMosaic.PureOps.Ideal

noncomputable section

namespace Cert.PreFinite

open Idealize.ShloMosaic

/-- The rank-0 shape has one index. -/
local instance : Subsingleton Cert.Pre_finite_inputs.S_.Idx := ⟨fun a b => funext fun d => d.elim0⟩

/-- An extended real whose absolute value is below +∞ is a real. -/
theorem real_of_abs_lt_top (y : EReal)
    (h : Ideal.cmp .olt (max y (-y)) (Ideal.ofBits .f32 0x7F800000#32) = 1#1) : ∃ a : ℝ, y = (a : EReal) := by
  have htop : Ideal.ofBits .f32 0x7F800000#32 = ⊤ := by simp [Ideal.ofBits, Ideal.ieee]
  rw [htop] at h
  induction y using EReal.rec with
  | bot => simp [Ideal.cmp] at h
  | coe a => exact ⟨a, rfl⟩
  | top => simp [Ideal.cmp] at h

theorem entries_real [Cert.Pre_finite_inputs.Facts] (x : FVec Ideal Cert.Pre_finite_inputs.S8192x256 .f32)
    (lab : IVec Cert.Pre_finite_inputs.S8192 32)
    (h : Cert.Pre_finite_inputs.fn (F := Ideal) x lab = (fun _ => 1#1)) (r : Fin 8192) (k : Fin 256) :
    ∃ a : ℝ, x (ValueIdx.ix2 r k) = (a : EReal) := by
  have h0 := congrFun h ValueIdx.ix0
  dsimp only [Cert.Pre_finite_inputs.fn] at h0
  have hi := Host.reduce_andi_all _ _ _ _ _ h0 (ValueIdx.ix2 r k)
  exact real_of_abs_lt_top _ hi

end Cert.PreFinite

end
-- ==== Proof.lean ====
/-
  The kernel and the reference compute the same mean hard-mined triplet margin loss.

  Over 8192 feature vectors of length 256 with integer labels, row `r`'s loss is
  `max 0 (0.3 + a − b)`, `a` the largest distance from `r` to a row of the same label other than itself (0 when there
  is none) and `b` the smallest distance to a row of another label (10⁶ when there is none); the distance is the
  guarded square root of `max (|x_r|² + |x_c|² − 2⟨x_r, x_c⟩) 0`. The result is the mean of the 8192 row losses.

  The reference takes each row's maximum and minimum over all 8192 columns at once and decides "there is none" from
  the masks. The kernel walks a grid of 8 row blocks × 16 column blocks, keeps the running maximum and minimum of a
  row block in two scratch vectors across its sixteen column blocks (reset at the first, read out at the last) and
  decides "there is none" by comparing the running value with its sentinel (−∞, +∞). At the extended reals:
  * a fold of `max` (of `min`) over 8192 columns is the fold over sixteen blocks of the folds over each block's
    512 columns, in any grouping — commutativity and associativity only;
  * a distance is never negative, so the maximum is −∞ exactly when the row has no positive;
  * for FINITE features every distance is a real, so the minimum is +∞ exactly when the row has no negative — the
    one place the precondition is used;
  hence the two row losses agree, and both programs average them the same way (a sum from zero, divided by 8192).
  The frames: each program terminates without a fault and leaves both argument arrays unchanged — the reference's
  from its run, the kernel's (word-level and idealized alike) from the run of its region with the feature array
  read through two windows at half shares. The idealization rewrote nothing, so `preserves` is trivial.
-/
import proofs.«146683_j3109556322825_1_alg».proof.Defs
import proofs.«146683_j3109556322825_1_alg».proof.Proof.Gen.Kernel
import proofs.«146683_j3109556322825_1_alg».proof.Proof.Gen.KernelIdeal
import proofs.«146683_j3109556322825_1_alg».proof.Proof.Gen.ReferenceIdeal
import proofs.«146683_j3109556322825_1_alg».proof.Proof.Gen.Pre_finite_inputs
import proofs.«146683_j3109556322825_1_alg».proof.Proof.K.Launch
import proofs.«146683_j3109556322825_1_alg».proof.Proof.KI.Final
import proofs.«146683_j3109556322825_1_alg».proof.Proof.RefValue
import proofs.«146683_j3109556322825_1_alg».proof.Proof.SpecMath
import proofs.«146683_j3109556322825_1_alg».proof.Proof.PreFinite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := Cert.ReferenceIdeal.RefValue.frame

theorem preserves : Cert.preserves_Kernel_KernelIdeal := trivial

/-- Both programs end at the mean of the row losses of the same features and labels: the kernel's from its running
    folds (`lossK`), the reference's from the whole-row folds and the masks (`lossR`), equal for finite features. -/
theorem algebraic : Cert.algebraic_KernelIdeal_ReferenceIdeal := by
  intro m ρ m' ρ' hpre hagree
  refine ⟨fun c => (fun _ => Cert.Spec.mean (fun r => Cert.Spec.lossK (Cert.KernelIdeal.HandV.feat m c) (Cert.KernelIdeal.HandV.labs m c) r)), ?_, ?_⟩
  · exact (θ_run Cert.KernelIdeal.defs _ _).mono
      (fun r h c => ⟨(h c).1.trans (Cert.KernelIdeal.HandV.result_eq m c), (h c).2⟩)
      (Cert.KernelIdeal.Hand.run_main (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2]
    funext _
    refine congrArg Cert.Spec.mean (funext fun r => ?_)
    exact (Cert.Spec.lossK_eq_lossR _ _ (fun r k => Cert.PreFinite.entries_real _ _ (hpre c) r k) r).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
